-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x19x512x512 : Shape := ⟨4, ![16, 19, 512, 512]⟩
abbrev S16x512x512 : Shape := ⟨3, ![16, 512, 512]⟩
abbrev S_ : Shape := ⟨0, ![]⟩

class Facts : Prop where
  bcast_S_S16x19x512x512 : S_.BroadcastsInDim S16x19x512x512 (![] : Fin 0 → Fin S16x19x512x512.rank)
  reducesTo_S16x19x512x512_S_d0_1_2_3 : S16x19x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x19x512x512 .f32) (main_arg1 : IVec S16x512x512 32) : IVec S_ 1 :=
  let main_v0 : FVec F S16x19x512x512 .f32 := Host.absf main_arg0
  let main_cst : FVec F S_ .f32 := constant S_ .f32 0x7F800000#32
  let main_v1 : FVec F S16x19x512x512 .f32 := broadcastInDim S16x19x512x512 ![] bcast_S_S16x19x512x512 main_cst
  let main_v2 : IVec S16x19x512x512 1 := cmpf .olt main_v0 main_v1
  let main_c : IVec S_ 1 := constantI S_ 1 1#1
  let main_v3 : IVec S_ 1 := (fun x v => Host.reduce IntOp.andi x v reducesTo_S16x19x512x512_S_d0_1_2_3 h_S_) main_v2 main_c
  let main_c_0 : IVec S_ 32 := constantI S_ 32 255#32
  let main_v4 : IVec S16x512x512 32 := broadcastInDim S16x512x512 ![] bcast_S_S16x512x512 main_c_0
  let main_v5 : IVec S16x512x512 1 := cmpi .eq main_arg1 main_v4
  let main_c_1 : IVec S_ 32 := constantI S_ 32 0#32
  let main_v6 : IVec S16x512x512 32 := broadcastInDim S16x512x512 ![] bcast_S_S16x512x512 main_c_1
  let main_v7 : IVec S16x512x512 1 := cmpi .sge main_arg1 main_v6
  let main_c_2 : IVec S_ 32 := constantI S_ 32 18#32
  let main_v8 : IVec S16x512x512 32 := broadcastInDim S16x512x512 ![] bcast_S_S16x512x512 main_c_2
  let main_v9 : IVec S16x512x512 1 := cmpi .sle main_arg1 main_v8
  let main_v10 : IVec S16x512x512 1 := andi main_v7 main_v9
  let main_v11 : IVec S16x512x512 1 := ori main_v5 main_v10
  let main_c_3 : IVec S_ 1 := constantI S_ 1 1#1
  let main_v12 : IVec S_ 1 := (fun x v => Host.reduce IntOp.andi x v reducesTo_S16x512x512_S_d0_1_2 h_S_) main_v11 main_c_3
  let main_v13 : IVec S_ 1 := andi main_v3 main_v12
  main_v13
-- ==== Kernel.lean ====
abbrev S16x19x512x512 : Shape := ⟨4, ![16, 19, 512, 512]⟩
abbrev S16x512x512 : Shape := ⟨3, ![16, 512, 512]⟩
abbrev S16x1x1 : Shape := ⟨3, ![16, 1, 1]⟩
abbrev S1x19x256x512 : Shape := ⟨4, ![1, 19, 256, 512]⟩
abbrev S1x256x512 : Shape := ⟨3, ![1, 256, 512]⟩
abbrev S1x1x1 : Shape := ⟨3, ![1, 1, 1]⟩
abbrev S1x1 : Shape := ⟨2, ![1, 1]⟩
abbrev S256x512 : Shape := ⟨2, ![256, 512]⟩
abbrev S1x1x256x512 : Shape := ⟨4, ![1, 1, 256, 512]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S16x19x512x512, .f32⟩
  | .hbm, ⟨1, _⟩ => ⟨S16x512x512, .i32⟩
  | .hbm, ⟨2, _⟩ => ⟨S16x1x1, .f32⟩
  | .hbm, ⟨3, _⟩ => ⟨S16x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x19x256x512, .f32⟩
  | .local _ .vmem, ⟨1, _⟩ => ⟨S1x19x256x512, .f32⟩
  | .local _ .vmem, ⟨2, _⟩ => ⟨S1x256x512, .i32⟩
  | .local _ .vmem, ⟨3, _⟩ => ⟨S1x256x512, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S16x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x19x256x512_S1x1x256x512_0_0_0_0 : ∀ a, (![0, 0, 0, 0] : Fin 4 → Nat) a + S1x1x256x512.size a ≤ S1x19x256x512.size a
  h_S1x1x256x512 : 0 < S1x1x256x512.numel
  shapeCasts_S1x1x256x512_S256x512 : S1x1x256x512.ShapeCasts S256x512
  inb_S1x19x256x512_S1x1x256x512_0_1_0_0 : ∀ a, (![0, 1, 0, 0] : Fin 4 → Nat) a + S1x1x256x512.size a ≤ S1x19x256x512.size a
  inb_S1x19x256x512_S1x1x256x512_0_2_0_0 : ∀ a, (![0, 2, 0, 0] : Fin 4 → Nat) a + S1x1x256x512.size a ≤ S1x19x256x512.size a
  inb_S1x19x256x512_S1x1x256x512_0_3_0_0 : ∀ a, (![0, 3, 0, 0] : Fin 4 → Nat) a + S1x1x256x512.size a ≤ S1x19x256x512.size a
  inb_S1x19x256x512_S1x1x256x512_0_4_0_0 : ∀ a, (![0, 4, 0, 0] : Fin 4 → Nat) a + S1x1x256x512.size a ≤ S1x19x256x512.size a
  inb_S1x19x256x512_S1x1x256x512_0_5_0_0 : ∀ a, (![0, 5, 0, 0] : Fin 4 → Nat) a + S1x1x256x512.size a ≤ S1x19x256x512.size a
  inb_S1x19x256x512_S1x1x256x512_0_6_0_0 : ∀ a, (![0, 6, 0, 0] : Fin 4 → Nat) a + S1x1x256x512.size a ≤ S1x19x256x512.size a
  inb_S1x19x256x512_S1x1x256x512_0_7_0_0 : ∀ a, (![0, 7, 0, 0] : Fin 4 → Nat) a + S1x1x256x512.size a ≤ S1x19x256x512.size a
  inb_S1x19x256x512_S1x1x256x512_0_8_0_0 : ∀ a, (![0, 8, 0, 0] : Fin 4 → Nat) a + S1x1x256x512.size a ≤ S1x19x256x512.size a
  inb_S1x19x256x512_S1x1x256x512_0_9_0_0 : ∀ a, (![0, 9, 0, 0] : Fin 4 → Nat) a + S1x1x256x512.size a ≤ S1x19x256x512.size a
  inb_S1x19x256x512_S1x1x256x512_0_10_0_0 : ∀ a, (![0, 10, 0, 0] : Fin 4 → Nat) a + S1x1x256x512.size a ≤ S1x19x256x512.size a
  inb_S1x19x256x512_S1x1x256x512_0_11_0_0 : ∀ a, (![0, 11, 0, 0] : Fin 4 → Nat) a + S1x1x256x512.size a ≤ S1x19x256x512.size a
  inb_S1x19x256x512_S1x1x256x512_0_12_0_0 : ∀ a, (![0, 12, 0, 0] : Fin 4 → Nat) a + S1x1x256x512.size a ≤ S1x19x256x512.size a
  inb_S1x19x256x512_S1x1x256x512_0_13_0_0 : ∀ a, (![0, 13, 0, 0] : Fin 4 → Nat) a + S1x1x256x512.size a ≤ S1x19x256x512.size a
  inb_S1x19x256x512_S1x1x256x512_0_14_0_0 : ∀ a, (![0, 14, 0, 0] : Fin 4 → Nat) a + S1x1x256x512.size a ≤ S1x19x256x512.size a
  inb_S1x19x256x512_S1x1x256x512_0_15_0_0 : ∀ a, (![0, 15, 0, 0] : Fin 4 → Nat) a + S1x1x256x512.size a ≤ S1x19x256x512.size a
  inb_S1x19x256x512_S1x1x256x512_0_16_0_0 : ∀ a, (![0, 16, 0, 0] : Fin 4 → Nat) a + S1x1x256x512.size a ≤ S1x19x256x512.size a
  inb_S1x19x256x512_S1x1x256x512_0_17_0_0 : ∀ a, (![0, 17, 0, 0] : Fin 4 → Nat) a + S1x1x256x512.size a ≤ S1x19x256x512.size a
  inb_S1x19x256x512_S1x1x256x512_0_18_0_0 : ∀ a, (![0, 18, 0, 0] : Fin 4 → Nat) a + S1x1x256x512.size a ≤ S1x19x256x512.size a
  natLt_1_32 : 1 < 32
  reduces_S256x512_S256 : S256x512.Reduces [1] S256
  shapeCasts_S256_S256x1 : S256.ShapeCasts S256x1
  reduces_S256x1_S1 : S256x1.Reduces [0] S1
  shapeCasts_S1_S1x1 : S1.ShapeCasts S1x1
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x256x512.size a ≤ S16x19x512x512.size a
  hwx0_0 : ∀ i : grid0.Coords, EltTy.bits .f32 = 32 ∨ (Rect.block (s := S16x19x512x512) S1x19x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S16x512x512.size a
  hwx0_1 : ∀ i : grid0.Coords, EltTy.bits .i32 = 32 ∨ (Rect.block (s := S16x512x512) S1x256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S1x19x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x19x512x512 : Shape := ⟨4, ![16, 19, 512, 512]⟩
abbrev S16x512x512 : Shape := ⟨3, ![16, 512, 512]⟩
abbrev S_ : Shape := ⟨0, ![]⟩
abbrev S16x1x512x512 : Shape := ⟨4, ![16, 1, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩
abbrev S16x514x514 : Shape := ⟨3, ![16, 514, 514]⟩

abbrev nBuf : Space → Nat
  | .hbm => 101
  | .vmem => 0
  | .smem => 0
  | _ => 0

abbrev bufTy : (tb : Table) → Fin (tcTables nBuf tb) → BufTy
  | .hbm, ⟨0, _⟩ => ⟨S16x19x512x512, .f32⟩
  | .hbm, ⟨1, _⟩ => ⟨S16x512x512, .i32⟩
  | .hbm, ⟨2, _⟩ => ⟨S_, .i32⟩
  | .hbm, ⟨3, _⟩ => ⟨S16x512x512, .i32⟩
  | .hbm, ⟨4, _⟩ => ⟨S16x512x512, .i1⟩
  | .hbm, ⟨5, _⟩ => ⟨S_, .f32⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S16x512x512, .f32⟩
  | .hbm, ⟨10, _⟩ => ⟨S16x1x512x512, .f32⟩
  | .hbm, ⟨11, _⟩ => ⟨S16x19x512x512, .f32⟩
  | .hbm, ⟨12, _⟩ => ⟨S16x19x512x512, .f32⟩
  | .hbm, ⟨13, _⟩ => ⟨S16x19x512x512, .f32⟩
  | .hbm, ⟨14, _⟩ => ⟨S_, .f32⟩
  | .hbm, ⟨15, _⟩ => ⟨S16x512x512, .f32⟩
  | .hbm, ⟨16, _⟩ => ⟨S16x1x512x512, .f32⟩
  | .hbm, ⟨17, _⟩ => ⟨S16x1x512x512, .f32⟩
  | .hbm, ⟨18, _⟩ => ⟨S16x19x512x512, .f32⟩
  | .hbm, ⟨19, _⟩ => ⟨S16x19x512x512, .f32⟩
  | .hbm, ⟨20, _⟩ => ⟨S_, .i32⟩
  | .hbm, ⟨21, _⟩ => ⟨S_, .i32⟩
  | .hbm, ⟨22, _⟩ => ⟨S16x512x512, .i32⟩
  | .hbm, ⟨23, _⟩ => ⟨S16x512x512, .i32⟩
  | .hbm, ⟨24, _⟩ => ⟨S16x1x512x512, .i32⟩
  | .hbm, ⟨25, _⟩ => ⟨S_, .i32⟩
  | .hbm, ⟨26, _⟩ => ⟨S16x1x512x512, .i32⟩
  | .hbm, ⟨27, _⟩ => ⟨S16x1x512x512, .i1⟩
  | .hbm, ⟨28, _⟩ => ⟨S_, .i32⟩
  | .hbm, ⟨29, _⟩ => ⟨S16x1x512x512, .i32⟩
  | .hbm, ⟨30, _⟩ => ⟨S16x1x512x512, .i32⟩
  | .hbm, ⟨31, _⟩ => ⟨S16x1x512x512, .i32⟩
  | .hbm, ⟨32, _⟩ => ⟨S16x1x512x512x1, .i32⟩
  | .hbm, ⟨33, _⟩ => ⟨S1, .i32⟩
  | .hbm, ⟨34, _⟩ => ⟨S_, .i32⟩
  | .hbm, ⟨35, _⟩ => ⟨S16x1x512x512x1, .i32⟩
  | .hbm, ⟨36, _⟩ => ⟨S16x1x512x512x1, .i1⟩
  | .hbm, ⟨37, _⟩ => ⟨S1x1x1x1x1, .i32⟩
  | .hbm, ⟨38, _⟩ => ⟨S16x1x512x512x1, .i32⟩
  | .hbm, ⟨39, _⟩ => ⟨S16x1x512x512x1, .i1⟩
  | .hbm, ⟨40, _⟩ => ⟨S16x1x512x512x1, .i1⟩
  | .hbm, ⟨41, _⟩ => ⟨S_, .i1⟩
  | .hbm, ⟨42, _⟩ => ⟨S16x1x512x512, .i1⟩
  | .hbm, ⟨43, _⟩ => ⟨S16x1x512x512, .f32⟩
  | .hbm, ⟨44, _⟩ => ⟨S_, .f32⟩
  | .hbm, ⟨45, _⟩ => ⟨S16x1x512x512, .f32⟩
  | .hbm, ⟨46, _⟩ => ⟨S16x1x512x512, .f32⟩
  | .hbm, ⟨47, _⟩ => ⟨S16x512x512, .f32⟩
  | .hbm, ⟨48, _⟩ => ⟨S16x512x512, .f32⟩
  | .hbm, ⟨49, _⟩ => ⟨S_, .f32⟩
  | .hbm, ⟨50, _⟩ => ⟨S_, .f32⟩
  | .hbm, ⟨51, _⟩ => ⟨S16x512x512, .f32⟩
  | .hbm, ⟨52, _⟩ => ⟨S16x512x512, .f32⟩
  | .hbm, ⟨53, _⟩ => ⟨S16x512x512, .f32⟩
  | .hbm, ⟨54, _⟩ => ⟨S16x512x512, .f32⟩
  | .hbm, ⟨55, _⟩ => ⟨S_, .f32⟩
  | .hbm, ⟨56, _⟩ => ⟨S16x512x512, .f32⟩
  | .hbm, ⟨57, _⟩ => ⟨S16x512x512, .f32⟩
  | .hbm, ⟨58, _⟩ => ⟨S_, .f32⟩
  | .hbm, ⟨59, _⟩ => ⟨S16x512x512, .f32⟩
  | .hbm, ⟨60, _⟩ => ⟨S16x512x512, .f32⟩
  | .hbm, ⟨61, _⟩ => ⟨S_, .f32⟩
  | .hbm, ⟨62, _⟩ => ⟨S16x512x512, .f32⟩
  | .hbm, ⟨63, _⟩ => ⟨S16x512x512, .f32⟩
  | .hbm, ⟨64, _⟩ => ⟨S16x512x512, .f32⟩
  | .hbm, ⟨65, _⟩ => ⟨S16x512x512, .f32⟩
  | .hbm, ⟨66, _⟩ => ⟨S_, .i32⟩
  | .hbm, ⟨67, _⟩ => ⟨S_, .f32⟩
  | .hbm, ⟨68, _⟩ => ⟨S16x514x514, .f32⟩
  | .hbm, ⟨69, _⟩ => ⟨S16x512x512, .f32⟩
  | .hbm, ⟨70, _⟩ => ⟨S16x512x512, .f32⟩
  | .hbm, ⟨71, _⟩ => ⟨S16x512x512, .f32⟩
  | .hbm, ⟨72, _⟩ => ⟨S16x512x512, .f32⟩
  | .hbm, ⟨73, _⟩ => ⟨S16x512x512, .f32⟩
  | .hbm, ⟨74, _⟩ => ⟨S16x512x512, .f32⟩
  | .hbm, ⟨75, _⟩ => ⟨S16x512x512, .f32⟩
  | .hbm, ⟨76, _⟩ => ⟨S16x512x512, .f32⟩
  | .hbm, ⟨77, _⟩ => ⟨S_, .f32⟩
  | .hbm, ⟨78, _⟩ => ⟨S16x512x512, .f32⟩
  | .hbm, ⟨79, _⟩ => ⟨S16x512x512, .f32⟩
  | .hbm, ⟨80, _⟩ => ⟨S16x512x512, .f32⟩
  | .hbm, ⟨81, _⟩ => ⟨S_, .f32⟩
  | .hbm, ⟨82, _⟩ => ⟨S16x512x512, .f32⟩
  | .hbm, ⟨83, _⟩ => ⟨S16x512x512, .i1⟩
  | .hbm, ⟨84, _⟩ => ⟨S_, .f32⟩
  | .hbm, ⟨85, _⟩ => ⟨S_, .f32⟩
  | .hbm, ⟨86, _⟩ => ⟨S16x512x512, .f32⟩
  | .hbm, ⟨87, _⟩ => ⟨S16x512x512, .f32⟩
  | .hbm, ⟨88, _⟩ => ⟨S16x512x512, .f32⟩
  | .hbm, ⟨89, _⟩ => ⟨S16x512x512, .f32⟩
  | .hbm, ⟨90, _⟩ => ⟨S16x512x512, .f32⟩
  | .hbm, ⟨91, _⟩ => ⟨S16x512x512, .f32⟩
  | .hbm, ⟨92, _⟩ => ⟨S16x512x512, .f32⟩
  | .hbm, ⟨93, _⟩ => ⟨S16x512x512, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S16x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v3 : Ref sig .tc := ⟨.hbm, 23, rfl⟩
abbrev main_v4 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst : Ref sig .tc := ⟨.hbm, 49, rfl⟩
abbrev main_call3_v0 : Ref sig .tc := ⟨.hbm, 50, rfl⟩
abbrev main_call3_v1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_v12 : Ref sig .tc := ⟨.hbm, 57, rfl⟩
abbrev main_cst_2 : Ref sig .tc := ⟨.hbm, 58, rfl⟩
abbrev main_v13 : Ref sig .tc := ⟨.hbm, 59, rfl⟩
abbrev main_v14 : Ref sig .tc := ⟨.hbm, 60, rfl⟩
abbrev main_cst_3 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_c_4 : Ref sig .tc := ⟨.hbm, 66, rfl⟩
abbrev main_call4_v0 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_5 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_6 : Ref sig .tc := ⟨.hbm, 81, rfl⟩
abbrev main_v31 : Ref sig .tc := ⟨.hbm, 82, rfl⟩
abbrev main_v32 : Ref sig .tc := ⟨.hbm, 83, rfl⟩
abbrev main_cst_7 : Ref sig .tc := ⟨.hbm, 84, rfl⟩
abbrev main_cst_8 : Ref sig .tc := ⟨.hbm, 85, rfl⟩
abbrev main_call5_v0 : Ref sig .tc := ⟨.hbm, 86, rfl⟩
abbrev main_call5_v1 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_9 : Ref sig .tc := ⟨.hbm, 94, rfl⟩
abbrev main_v39 : Ref sig .tc := ⟨.hbm, 95, rfl⟩
abbrev main_cst_10 : Ref sig .tc := ⟨.hbm, 96, rfl⟩
abbrev main_v40 : Ref sig .tc := ⟨.hbm, 97, rfl⟩
abbrev main_cst_11 : Ref sig .tc := ⟨.hbm, 98, rfl⟩
abbrev main_v41 : Ref sig .tc := ⟨.hbm, 99, rfl⟩
abbrev main_v42 : Ref sig .tc := ⟨.hbm, 100, rfl⟩

abbrev nD : Nat := 1
abbrev τ : Topo := Topo.v7x

variable {F : FTy → Type} [FloatOps F]

class Facts₀ : Prop where
  bcast_S_S16x512x512 : S_.BroadcastsInDim S16x512x512 (![] : Fin 0 → Fin S16x512x512.rank)
  reducesTo_S16x19x512x512_S16x512x512_d1 : S16x19x512x512.ReducesTo [1] S16x512x512
  h_S_ : 0 < S_.numel
  bcast_S16x512x512_S16x1x512x512_0_2_3 : S16x512x512.BroadcastsInDim S16x1x512x512 (![0, 2, 3] : Fin 3 → Fin S16x1x512x512.rank)
  bcast_S16x1x512x512_S16x19x512x512_0_1_2_3 : S16x1x512x512.BroadcastsInDim S16x19x512x512 (![0, 1, 2, 3] : Fin 4 → Fin S16x19x512x512.rank)
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  shapeCasts_S16x1x512x512_S16x512x512 : S16x1x512x512.ShapeCasts S16x512x512
  pads_S16x512x512_S16x514x514_000_110_110 : S16x512x512.Pads (![0, 1, 1] : Fin 3 → Nat) ![0, 1, 1] ![0, 0, 0] S16x514x514
  slices_S16x514x514_S16x512x512_0_0_1 : S16x514x514.Slices ![0, 0, 1] S16x512x512
  slices_S16x514x514_S16x512x512_0_2_1 : S16x514x514.Slices ![0, 2, 1] S16x512x512
  slices_S16x514x514_S16x512x512_0_1_0 : S16x514x514.Slices ![0, 1, 0] S16x512x512
  slices_S16x514x514_S16x512x512_0_1_2 : S16x514x514.Slices ![0, 1, 2] S16x512x512
  reducesTo_S16x512x512_S_d0_1_2 : S16x512x512.ReducesTo [0, 1, 2] S_
  gather_S16x19x512x512_S16x1x512x512x1_S16x1x512x512_n_1_023_023_1_4_1111_wf : GatherDims.WF S16x19x512x512 S16x1x512x512x1 S16x1x512x512 [] [1] [0, 2, 3] [1] [0, 2, 3] 4 ![1, 1, 1, 1]

variable [Facts₀]

def gather_S16x19x512x512_S16x1x512x512x1_S16x1x512x512_n_1_023_023_1_4_1111 : GatherDims S16x19x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x19x512x512_S16x1x512x512x1_S16x1x512x512_n_1_023_023_1_4_1111_wf

class Facts : Prop extends Facts₀ where

variable [Facts]
-- ==== Proof.Spec.lean ====
/-
  The per-pixel mathematics of the focal loss, over the extended reals, in the two arrangements the two
  programs compute it in, and the whole-array results built from them.

  A pixel is a batch entry `b` and a position `(r, q)` of the 512 × 512 image; it carries 19 channel values
  `xs c` (the logits) and one label word `tw` (a class in 0 … 18, or 255 = "ignore").  With
  `M = max_c xs c`, `d c = xs c - M`, `S = ∑_c exp (d c)` and `t` the label (0 where ignored), the
  cross entropy is `ce = log S - d t` (0 where ignored), the focal term `(1 - exp (-ce)) · ce`, and the
  loss is `(∑ focal · valid) / max (∑ valid) ε` over all pixels.
-/
import Idealize.ShloMosaic.PureOps.Ideal
import Idealize.ShloMosaic.Lib.ValueIdx

noncomputable section

namespace Cert.Focal

open Idealize.ShloMosaic

/-- The float words both programs print: `+0.0`, `1.0` and the loss's `ε` (the f32 nearest 1e-8). -/
abbrev zeroW : EReal := Ideal.ofBits .f32 0x00000000#32
abbrev oneW : EReal := Ideal.ofBits .f32 0x3F800000#32
abbrev epsW : EReal := Ideal.ofBits .f32 0x322BCC77#32

/-- A pixel's 19 channel values. -/
abbrev Px := Fin 19 → EReal

/-- The label is not the "ignore" word 255. -/
def valid (tw : BitVec 32) : BitVec 1 := IntOp.cmpi .ne tw 255#32

/-- The label the kernel indexes with: 0 where ignored, then clamped into 0 … 18. -/
def safeK (tw : BitVec 32) : BitVec 32 :=
  IntOp.minsi 18#32 (IntOp.maxsi 0#32 (Scalar.select (valid tw) tw 0#32))

/-- The running maximum of channels 0 … n, taken left to right. -/
def maxUpTo (xs : Px) : (n : ℕ) → n < 19 → EReal
  | 0, _ => xs 0
  | n + 1, h => max (maxUpTo xs n (Nat.lt_of_succ_lt h)) (xs ⟨n + 1, h⟩)

/-- The kernel's channel maximum. -/
def maxK (xs : Px) : EReal := maxUpTo xs 18 (by decide)

/-- The running sum `0 + exp (xs 0 - M) + … + exp (xs n - M)`, left to right. -/
def sumExpUpTo (xs : Px) (M : EReal) : (n : ℕ) → n < 19 → EReal
  | 0, _ => zeroW + Ideal.exp (xs 0 - M)
  | n + 1, h => sumExpUpTo xs M n (Nat.lt_of_succ_lt h) + Ideal.exp (xs ⟨n + 1, h⟩ - M)

/-- The running sum of the shifted channel values kept where the channel is the label `st`, zero elsewhere. -/
def selUpTo (xs : Px) (M : EReal) (st : BitVec 32) : (n : ℕ) → n < 19 → EReal
  | 0, _ => zeroW + Scalar.select (IntOp.cmpi .eq st (BitVec.ofNat 32 0)) (xs 0 - M) zeroW
  | n + 1, h => selUpTo xs M st n (Nat.lt_of_succ_lt h)
      + Scalar.select (IntOp.cmpi .eq st (BitVec.ofNat 32 (n + 1))) (xs ⟨n + 1, h⟩ - M) zeroW

/-- The kernel's cross entropy of one pixel: `log S - (xs t - M)`, zero where the label is ignored. -/
def ceK (xs : Px) (tw : BitVec 32) : EReal :=
  Scalar.select (valid tw)
    (Ideal.log (sumExpUpTo xs (maxK xs) 18 (by decide)) - selUpTo xs (maxK xs) (safeK tw) 18 (by decide)) zeroW

/-- The kernel's validity weight of one pixel: the bit widened to a word, converted signed. -/
def vmK (tw : BitVec 32) : EReal := FloatOps.sitofp (F := Ideal) .f32 ((valid tw).setWidth 32)

/-- The kernel's summand of the numerator at one pixel. -/
def numK (xs : Px) (tw : BitVec 32) : EReal :=
  ((oneW * (oneW - Ideal.exp (zeroW - ceK xs tw))) * ceK xs tw) * vmK tw

/-! ## The arrays -/

open ValueIdx

abbrev SX : Shape := ⟨4, ![16, 19, 512, 512]⟩
abbrev ST : Shape := ⟨3, ![16, 512, 512]⟩

/-- Pixel `(b, r, q)`'s channel values in the logits array. -/
def pxAt (x : SX.Idx → EReal) (b : Fin 16) (r q : Fin 512) : Px := fun c => x (ix4 b c r q)

/-- Pixel `(b, r, q)`'s label word. -/
def twAt (t : ST.Idx → BitVec 32) (b : Fin 16) (r q : Fin 512) : BitVec 32 := t (ix3 b r q)

/-- Row `256 · h + r` of the image: row `r` of the `h`-th half. -/
def rowOf (h : Fin 2) (r : Fin 256) : Fin 512 := ⟨256 * h.val + r.val, by omega⟩

/-- What one grid point `(b, h)` adds to batch entry `b`'s numerator: the sum over its 256 × 512 tile, rows
    outermost, each row summed along its lanes first. -/
def tileNum (x : SX.Idx → EReal) (t : ST.Idx → BitVec 32) (b : Fin 16) (h : Fin 2) : EReal :=
  ∑ r : Fin 256, ∑ q : Fin 512, numK (pxAt x b (rowOf h r) q) (twAt t b (rowOf h r) q)

/-- … and to its denominator. -/
def tileDen (t : ST.Idx → BitVec 32) (b : Fin 16) (h : Fin 2) : EReal :=
  ∑ r : Fin 256, ∑ q : Fin 512, vmK (twAt t b (rowOf h r) q)

/-- Batch entry `b`'s numerator as the kernel leaves it: zeroed at the first half, each half added in turn. -/
def batchNum (x : SX.Idx → EReal) (t : ST.Idx → BitVec 32) (b : Fin 16) : EReal :=
  (zeroW + tileNum x t b 0) + tileNum x t b 1

def batchDen (t : ST.Idx → BitVec 32) (b : Fin 16) : EReal :=
  (zeroW + tileDen t b 0) + tileDen t b 1

/-- The kernel's result: the per-batch numerators and denominators summed, the quotient guarded by `ε`. -/
def lossK (x : SX.Idx → EReal) (t : ST.Idx → BitVec 32) : EReal :=
  Ideal.div (zeroW + ∑ b : Fin 16, batchNum x t b) (max (zeroW + ∑ b : Fin 16, batchDen t b) epsW)

/-! ## The reference's arrangement of one pixel

`jax.nn.log_softmax` shifts by the channel maximum (a fold of `max` from `-∞`), sums the exponentials from `0`,
and subtracts the logarithm; `take_along_axis` wraps a negative index once, masks what is still out of range
with a NaN word, and reads at the index clamped into 0 … 18; the dilation weight is `0.2` where a
neighbouring pixel is valid and this one is not, else `1`. -/

abbrev negInfW : EReal := Ideal.ofBits .f32 0xFF800000#32
abbrev nanW : EReal := Ideal.ofBits .f32 0x7FC00000#32
abbrev fifthW : EReal := Ideal.ofBits .f32 0x3E4CCCCD#32

/-- The reference's channel maximum. -/
def maxR (xs : Px) : EReal := max negInfW ((Finset.univ : Finset (Fin 19)).fold max negInfW xs)

def sumExpR (xs : Px) : EReal := zeroW + ∑ c : Fin 19, Ideal.exp (xs c - maxR xs)

/-- The log-softmax of channel `c`. -/
def logpR (xs : Px) (c : Fin 19) : EReal := (xs c - maxR xs) - Ideal.log (sumExpR xs)

/-- The label with "ignore" replaced by class 0. -/
def safeR (tw : BitVec 32) : BitVec 32 := Scalar.select (valid tw) tw 0#32

/-- … a negative one wrapped around once. -/
def wrapR (tw : BitVec 32) : BitVec 32 :=
  Scalar.select (IntOp.cmpi .slt (safeR tw) 0#32) (IntOp.addi (safeR tw) 19#32) (safeR tw)

/-- It lies in 0 … 18. -/
def inbR (tw : BitVec 32) : BitVec 1 := IntOp.andi (IntOp.cmpi .sge (wrapR tw) 0#32) (IntOp.cmpi .sle (wrapR tw) 18#32)

/-- The channel a gather reads: the wrapped label clamped into 0 … 18. -/
def clampR (tw : BitVec 32) : Fin 19 := ⟨min (wrapR tw).toInt.toNat 18, by omega⟩

/-- The gathered log-probability, a NaN word where the label was out of range. -/
def takeR (xs : Px) (tw : BitVec 32) : EReal := Scalar.select (inbR tw) (logpR xs (clampR tw)) nanW

/-- The reference's cross entropy of one pixel. -/
def ceR (xs : Px) (tw : BitVec 32) : EReal := Scalar.select (valid tw) (-(takeR xs tw)) zeroW

/-- Its focal term `1 · (1 - exp (-ce)) ^ 1 · ce`. -/
def focalR (xs : Px) (tw : BitVec 32) : EReal :=
  (oneW * Ideal.pow (oneW - Ideal.exp (-(ceR xs tw))) oneW) * ceR xs tw

/-- The reference's validity weight: the bit converted unsigned. -/
def vmR (tw : BitVec 32) : EReal := FloatOps.uitofp (F := Ideal) .f32 (valid tw)

/-- The boundary weight of a pixel whose dilated validity is `D`. -/
def wgtR (tw : BitVec 32) (D : EReal) : EReal :=
  Scalar.select (FloatOps.cmpf (F := Ideal) (φ := .f32) .ogt (D * (oneW - vmR tw)) zeroW) fifthW oneW

/-- The reference's summands of the numerator and of the denominator at one pixel. -/
def numR (xs : Px) (tw : BitVec 32) (D : EReal) : EReal := (focalR xs tw * vmR tw) * wgtR tw D
def denR (tw : BitVec 32) (D : EReal) : EReal := vmR tw * wgtR tw D

/-- The reference's result from its two summand arrays. -/
def lossR (n d : ST.Idx → EReal) : EReal :=
  Ideal.div (zeroW + ∑ i : ST.Idx, n i) (max (zeroW + ∑ i : ST.Idx, d i) epsW)

end Cert.Focal

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.KernelTile.lean ====
/-
  What one run of the kernel body leaves in its two accumulator blocks, at the extended reals: the block it found
  (zero at the first half-image of a batch entry) plus the sum, over the 256 × 512 tile, of the per-pixel
  summand — the focal term times validity for the numerator, validity alone for the denominator.
-/
import proofs.«430339_j37263136260803_3_alg».proof.Proof.Gen.KernelIdeal.Frame
import proofs.«430339_j37263136260803_3_alg».proof.Proof.Spec
import proofs.«430339_j37263136260803_3_alg».proof.Proof.LibColumn
import Idealize.ShloMosaic.Lib.Pipeline.Value
import Idealize.ShloMosaic.Lib.ValueLayout
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem

namespace Cert.KernelIdeal.Tile

open Cert.KernelIdeal Cert.KernelIdeal.Gen ValueIdx Cert.Focal

theorem hz3 : (![0, 0, 0] : Fin 3 → Nat) = fun _ => 0 := funext fun a => by fin_cases a <;> rfl

/-! ## Reading the layout operations at an index -/

/-- Channel `c` of the staged block, loaded as a `[1, 1, 256, 512]` slice, read at `(0, 0, r, q)`. -/
theorem ld_chan (x0 : Vec Ideal S1x19x256x512 .f32) (c : ℕ) (hc : c < 19)
    (inb : ∀ a, (![0, c, 0, 0] : Fin 4 → ℕ) a + S1x1x256x512.size a ≤ S1x19x256x512.size a) (r : Fin 256) (q : Fin 512) :
    View.ld (Val := Elt Ideal) x0 (Rect.unit (s := S1x19x256x512) ![0, c, 0, 0] S1x1x256x512.size inb) (ix4 (0 : Fin 1) (0 : Fin 1) r q)
      = x0 (ix4 (0 : Fin 1) (⟨c, hc⟩ : Fin 19) r q) := by
  show x0 _ = x0 _
  congr 1
  funext a
  apply Fin.ext
  match a with
  | ⟨0, _⟩ => rfl
  | ⟨1, _⟩ => rfl
  | ⟨2, _⟩ => show 0 + 1 * r.val = r.val; omega
  | ⟨3, _⟩ => show 0 + 1 * q.val = q.val; omega

/-- A `[1, 1, 256, 512]` slice viewed as `[256, 512]` reads `(0, 0, r, q)` at `(r, q)`. -/
theorem cast_chan {α : Type} (v : S1x1x256x512.Idx → α) (h : S1x1x256x512.ShapeCasts S256x512) (r : Fin 256) (q : Fin 512) :
    shapeCast S256x512 v h (ix2 r q) = v (ix4 (0 : Fin 1) (0 : Fin 1) r q) :=
  shapeCast_apply v h _ _ (by
    rw [Shape.rowMajor_val_four, Shape.rowMajor_val_two]
    show ((0 * 1 + 0) * 256 + r.val) * 512 + q.val = r.val * 512 + q.val
    omega)

/-- The index a sum along the rows of a `[256, 1]` column inserts. -/
theorem lift_row (hr : S256x1.Reduces [0] S1) (j : S1.Idx) (k : Fin 256) : hr.lift j k = ix2 k (0 : Fin 1) := by
  funext a
  apply Fin.ext
  match a with
  | ⟨0, _⟩ => rfl
  | ⟨1, _⟩ => have h : (j 0).val < 1 := (j 0).isLt; show (j 0).val = 0; omega

/-- The index a sum along the lanes of a `[256, 512]` tile inserts. -/
theorem lift_col (hr : S256x512.Reduces [1] S256) (k : Fin 256) (q : Fin 512) : hr.lift (ix1 k) q = ix2 k q := by
  funext a
  apply Fin.ext
  match a with
  | ⟨0, _⟩ => rfl
  | ⟨1, _⟩ => rfl

/-- The accumulation: the block found, plus the tile's sum taken along the lanes and then along the rows. -/
theorem acc_apply (xo : Vec Ideal S1x1x1 .f32) (src : FVec Ideal S256x512 .f32)
    (h1 : S1x1x1.ShapeCasts S1x1) (h2 : S256.ShapeCasts S256x1) (h3 : S1.ShapeCasts S1x1) (h4 : S1x1.ShapeCasts S1x1x1)
    (hr1 : S256x512.Reduces [1] S256) (hr2 : S256x1.Reduces [0] S1) (hφ : FKind.Formats .f32)
    (hacc : (0x00000000#32 : BitVec 32) = FKind.add.neutral .f32 hφ) (y : S1x1x1.Idx) :
    shapeCast S1x1x1 (addf (F := Ideal) (shapeCast S1x1 xo h1)
        (shapeCast S1x1 (multiReduction (F := Ideal) .add [0] S1
          (shapeCast S256x1 (multiReduction (F := Ideal) .add [1] S256 src 0x00000000#32 hr1 hφ hacc) h2) 0x00000000#32 hr2 hφ hacc) h3)) h4 y
      = xo (ix3 (0 : Fin 1) (0 : Fin 1) (0 : Fin 1)) + ∑ r : Fin 256, ∑ q : Fin 512, src (ix2 r q) := by
  have hy : y = ix3 (0 : Fin 1) (0 : Fin 1) (0 : Fin 1) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega
  rw [hy, shapeCast_ab_1ab_apply]
  show (shapeCast S1x1 xo h1 (ix2 (0 : Fin 1) (0 : Fin 1)) : EReal) + shapeCast S1x1 _ h3 (ix2 (0 : Fin 1) (0 : Fin 1)) = _
  rw [shapeCast_1ab_ab_apply, shapeCast_a_1a_apply]
  congr 1
  refine (Ideal.multiReduction_add_single _ _ hr2 hφ hacc _).trans ?_
  refine Finset.sum_congr rfl fun k _ => ?_
  have e1 : hr2.lift (ix1 (0 : Fin 1)) k = ix2 (k : Fin 256) (0 : Fin 1) := lift_row hr2 _ k
  refine (congrArg (shapeCast S256x1 _ h2) e1).trans ?_
  refine (Cert.LibColumn.shapeCast_a_a1_apply _ h2 (k : Fin 256) 0).trans ?_
  refine (Ideal.multiReduction_add_single _ _ hr1 hφ hacc _).trans ?_
  refine Finset.sum_congr rfl fun q _ => ?_
  exact congrArg src (lift_col hr1 k q)

/-! ## The tile sums -/

/-- The sum over a staged tile of the per-pixel numerator summand. -/
def tileN (x0 : Vec Ideal S1x19x256x512 .f32) (x1 : Vec Ideal S1x256x512 .i32) : EReal :=
  ∑ r : Fin 256, ∑ q : Fin 512, numK (fun c => x0 (ix4 (0 : Fin 1) c r q)) (x1 (ix3 (0 : Fin 1) r q))

/-- The sum over a staged tile of the per-pixel validity. -/
def tileD (x1 : Vec Ideal S1x256x512 .i32) : EReal :=
  ∑ r : Fin 256, ∑ q : Fin 512, vmK (x1 (ix3 (0 : Fin 1) r q))

/-- The validity vector the body computes, read at a pixel. -/
theorem valid_at (x1 : Vec Ideal S1x256x512 .i32) (r : Fin 256) (q : Fin 512) :
    k0_pay1 (F := Ideal) (k0_pay7 (F := Ideal) x1) (ix2 r q) = vmK (x1 (ix3 (0 : Fin 1) r q)) := by
  simp only [k0_pay1, k0_pay7, k0_pay6, sitofp, extui, cmpi, broadcast, shapeCast_1ab_ab_apply]
  rfl

/-- The zero block the first half-image stores. -/
theorem zero_block (y : S1x1x1.Idx) : k0_pay5 (F := Ideal) y = zeroW ∧ k0_pay4 (F := Ideal) y = zeroW := by
  have hy : y = ix3 (0 : Fin 1) (0 : Fin 1) (0 : Fin 1) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega
  subst hy
  constructor
  · unfold k0_pay5; rw [shapeCast_ab_1ab_apply]; rfl
  · unfold k0_pay4; rw [shapeCast_ab_1ab_apply]; rfl

/-! ## The denominator block -/

/-- Later half-images: the block found plus the tile's count of valid pixels. -/
theorem out_B_3 (c : Dev nD) (i : grid0.Coords) (a2 : Memref sig .tc .vmem S1x19x256x512 .f32) (h2 : a2.IsWhole)
    (a3 : Memref sig .tc .vmem S1x256x512 .i32) (h3 : a3.IsWhole) (a4 : Memref sig .tc .vmem S1x1x1 .f32) (h4 : a4.IsWhole)
    (a5 : Memref sig .tc .vmem S1x1x1 .f32) (h5 : a5.IsWhole) (hc : ¬cond0_0 i)
    (x0 : Vec Ideal S1x19x256x512 .f32) (x1 : Vec Ideal S1x256x512 .i32) (xo2 xo3 : Vec Ideal S1x1x1 .f32) :
    out0_B_3 (F := Ideal) c i a2 h2 a3 h3 a4 h4 a5 h5 hc x0 x1 xo2 xo3
      = fun _ => xo3 (ix3 (0 : Fin 1) (0 : Fin 1) (0 : Fin 1)) + tileD x1 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread, View.ld_unit_zero (S := S1x1x1) hz3,
    View.ld_unit_zero (S := S1x256x512) hz3]
  funext y
  unfold k0_pay3
  refine (acc_apply _ _ _ _ _ _ _ _ _ _ y).trans ?_
  unfold tileD
  refine congrArg (HAdd.hAdd _) ?_
  exact Finset.sum_congr rfl fun r _ => Finset.sum_congr rfl fun q _ => valid_at x1 r q

/-- The first half-image: zero plus the tile's count. -/
theorem out_A_3 (c : Dev nD) (i : grid0.Coords) (a2 : Memref sig .tc .vmem S1x19x256x512 .f32) (h2 : a2.IsWhole)
    (a3 : Memref sig .tc .vmem S1x256x512 .i32) (h3 : a3.IsWhole) (a4 : Memref sig .tc .vmem S1x1x1 .f32) (h4 : a4.IsWhole)
    (a5 : Memref sig .tc .vmem S1x1x1 .f32) (h5 : a5.IsWhole) (hc : cond0_0 i)
    (x0 : Vec Ideal S1x19x256x512 .f32) (x1 : Vec Ideal S1x256x512 .i32) :
    out0_A_3 (F := Ideal) c i a2 h2 a3 h3 a4 h4 a5 h5 hc x0 x1 = fun _ => zeroW + tileD x1 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1) hz3, View.readCov_unit_zero (S := S1x1x1) _ hz3]
  simp only [View.readAt_eq_ld, h3.read_unread, View.ld_unit_zero (S := S1x256x512) hz3]
  funext y
  unfold k0_pay3
  refine (acc_apply _ _ _ _ _ _ _ _ _ _ y).trans ?_
  rw [(zero_block _).1]
  unfold tileD
  refine congrArg (HAdd.hAdd _) ?_
  exact Finset.sum_congr rfl fun r _ => Finset.sum_congr rfl fun q _ => valid_at x1 r q

/-! ## The numerator block

Every vector the body computes before its two sums is a pointwise function of the 19 channel slices and the label
block, so at a pixel `(r, q)` the product it sums is the per-pixel summand of that pixel's channel values and label. -/

/-- Unfold the body's arithmetic at one pixel: the pointwise operations at the index, the slices and the label block
    read where the layout operations say. -/
local macro "at_pixel" x0:ident : tactic =>
  `(tactic| simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, mulf, addf, subf, maximumf, exp, log, select, cmpi, broadcast, maxsi, minsi, sitofp, extui,
      cast_chan, shapeCast_1ab_ab_apply,
      ld_chan $x0 0 (by decide), ld_chan $x0 1 (by decide), ld_chan $x0 2 (by decide), ld_chan $x0 3 (by decide), ld_chan $x0 4 (by decide), ld_chan $x0 5 (by decide), ld_chan $x0 6 (by decide), ld_chan $x0 7 (by decide), ld_chan $x0 8 (by decide), ld_chan $x0 9 (by decide), ld_chan $x0 10 (by decide), ld_chan $x0 11 (by decide), ld_chan $x0 12 (by decide), ld_chan $x0 13 (by decide), ld_chan $x0 14 (by decide), ld_chan $x0 15 (by decide), ld_chan $x0 16 (by decide), ld_chan $x0 17 (by decide), ld_chan $x0 18 (by decide)])

/-- Later half-images: the block found plus the tile's sum of focal terms. -/
theorem out_B_2 (c : Dev nD) (i : grid0.Coords) (a2 : Memref sig .tc .vmem S1x19x256x512 .f32) (h2 : a2.IsWhole)
    (a3 : Memref sig .tc .vmem S1x256x512 .i32) (h3 : a3.IsWhole) (a4 : Memref sig .tc .vmem S1x1x1 .f32) (h4 : a4.IsWhole)
    (a5 : Memref sig .tc .vmem S1x1x1 .f32) (h5 : a5.IsWhole) (hc : ¬cond0_0 i)
    (x0 : Vec Ideal S1x19x256x512 .f32) (x1 : Vec Ideal S1x256x512 .i32) (xo2 xo3 : Vec Ideal S1x1x1 .f32) :
    out0_B_2 (F := Ideal) c i a2 h2 a3 h3 a4 h4 a5 h5 hc x0 x1 xo2 xo3
      = fun _ => xo2 (ix3 (0 : Fin 1) (0 : Fin 1) (0 : Fin 1)) + tileN x0 x1 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S1x1x1) hz3,
    View.ld_unit_zero (S := S1x256x512) hz3]
  funext y
  unfold k0_pay2
  refine (acc_apply _ _ _ _ _ _ _ _ _ _ y).trans ?_
  unfold tileN
  refine congrArg (HAdd.hAdd _) ?_
  refine Finset.sum_congr rfl fun r _ => Finset.sum_congr rfl fun q _ => ?_
  at_pixel x0
  rfl

/-- The first half-image: zero plus the tile's sum of focal terms. -/
theorem out_A_2 (c : Dev nD) (i : grid0.Coords) (a2 : Memref sig .tc .vmem S1x19x256x512 .f32) (h2 : a2.IsWhole)
    (a3 : Memref sig .tc .vmem S1x256x512 .i32) (h3 : a3.IsWhole) (a4 : Memref sig .tc .vmem S1x1x1 .f32) (h4 : a4.IsWhole)
    (a5 : Memref sig .tc .vmem S1x1x1 .f32) (h5 : a5.IsWhole) (hc : cond0_0 i)
    (x0 : Vec Ideal S1x19x256x512 .f32) (x1 : Vec Ideal S1x256x512 .i32) :
    out0_A_2 (F := Ideal) c i a2 h2 a3 h3 a4 h4 a5 h5 hc x0 x1 = fun _ => zeroW + tileN x0 x1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S1x256x512) hz3]
  funext y
  unfold k0_pay2
  refine (acc_apply _ _ _ _ _ _ _ _ _ _ y).trans ?_
  rw [(zero_block _).2]
  unfold tileN
  refine congrArg (HAdd.hAdd _) ?_
  refine Finset.sum_congr rfl fun r _ => Finset.sum_congr rfl fun q _ => ?_
  at_pixel x0
  rfl

end Cert.KernelIdeal.Tile

end
-- ==== Proof.KernelBlocks.lean ====
/-
  The kernel's accumulator blocks point by point, at the extended reals.  Grid point `t = 2 b + h` stages rows
  `256 h … 256 h + 255` of batch entry `b`; the two accumulator blocks of entry `b` are zeroed at `h = 0`, each
  half-image's tile sum is added in turn, and the blocks are written back after `h = 1`: entry `b` of the two
  result arrays is the per-batch numerator and denominator.  The host lines after the region sum the 16 entries of
  each and divide, the denominator guarded by `ε`.
-/
import proofs.«430339_j37263136260803_3_alg».proof.Proof.KernelTile
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Tile ValueIdx Cert.Focal

variable (m : (ℓ : Loc nD τ sig) → Buf (Elt Ideal) ℓ) (ρ : Dev nD → PrngReg)

/-! ## The arrays and the staged blocks, at their literal types -/

/-- The logits and the labels as the region finds them. -/
abbrev xarr (c : Dev nD) : Vec Ideal S16x19x512x512 .f32 := V m c main_arg0
abbrev tarr (c : Dev nD) : Vec Ideal S16x512x512 .i32 := V m c main_arg1

/-- The blocks point `t` stages. -/
abbrev xblk (c : Dev nD) (t : Fin cfg0.N) : Vec Ideal S1x19x256x512 .f32 := iblk m c 0 t
abbrev tblk (c : Dev nD) (t : Fin cfg0.N) : Vec Ideal S1x256x512 .i32 := iblk m c 1 t

theorem hN : cfg0.N = 32 := N_0

/-- Point `t`'s batch entry and half. -/
def bOf (t : Fin cfg0.N) : Fin 16 := ⟨t.val / 2, by have h : t.val < 32 := lt_of_lt_of_eq t.isLt hN; omega⟩
def hOf (t : Fin cfg0.N) : Fin 2 := ⟨t.val % 2, by omega⟩

/-- The printed index maps, decided over the grid: the blocks move with `(t / 2, t % 2)`. -/
theorem idx_facts : ∀ t : Fin cfg0.N,
    win0_0.index t (0 : Fin 4) = t.val / 2 ∧ win0_0.index t (1 : Fin 4) = 0 ∧ win0_0.index t (2 : Fin 4) = t.val % 2
    ∧ win0_0.index t (3 : Fin 4) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-- The staged logits block read at `(0, ch, r, q)` is the array at `(b, ch, 256 h + r, q)`. -/
theorem xblk_at (c : Dev nD) (t : Fin cfg0.N) (ch : Fin 19) (r : Fin 256) (q : Fin 512) :
    xblk m c t (ix4 (0 : Fin 1) ch r q) = xarr m c (ix4 (bOf t) ch (rowOf (hOf t) r) q) := by
  obtain ⟨e0, e1, e2, e3, -⟩ := idx_facts t
  show V m c main_arg0 (((cfg0.win 0).blk t).view.emb (ix4 (0 : Fin 1) ch r q)) = V m c main_arg0 _
  congr 1
  funext a; apply Fin.ext
  match a with
  | ⟨0, _⟩ => show win0_0.index t (0 : Fin 4) * 1 + 1 * 0 = t.val / 2; omega
  | ⟨1, _⟩ => show win0_0.index t (1 : Fin 4) * 19 + 1 * ch.val = ch.val; omega
  | ⟨2, _⟩ => show win0_0.index t (2 : Fin 4) * 256 + 1 * r.val = 256 * (t.val % 2) + r.val; omega
  | ⟨3, _⟩ => show win0_0.index t (3 : Fin 4) * 512 + 1 * q.val = q.val; omega

/-- The staged label block read at `(0, r, q)` is the array at `(b, 256 h + r, q)`. -/
theorem tblk_at (c : Dev nD) (t : Fin cfg0.N) (r : Fin 256) (q : Fin 512) :
    tblk m c t (ix3 (0 : Fin 1) r q) = tarr m c (ix3 (bOf t) (rowOf (hOf t) r) q) := by
  obtain ⟨-, -, -, -, e0, e1, e2, -⟩ := idx_facts t
  show V m c main_arg1 (((cfg0.win 1).blk t).view.emb (ix3 (0 : Fin 1) r q)) = V m c main_arg1 _
  congr 1
  funext a; apply Fin.ext
  match a with
  | ⟨0, _⟩ => show win0_1.index t (0 : Fin 3) * 1 + 1 * 0 = t.val / 2; omega
  | ⟨1, _⟩ => show win0_1.index t (1 : Fin 3) * 256 + 1 * r.val = 256 * (t.val % 2) + r.val; omega
  | ⟨2, _⟩ => show win0_1.index t (2 : Fin 3) * 512 + 1 * q.val = q.val; omega

/-- Point `t`'s tile sums are the arrays' tile sums of its batch entry and half. -/
theorem tileN_blk (c : Dev nD) (t : Fin cfg0.N) :
    tileN (xblk m c t) (tblk m c t) = tileNum (xarr m c) (tarr m c) (bOf t) (hOf t) := by
  unfold tileN tileNum
  refine Finset.sum_congr rfl fun r _ => Finset.sum_congr rfl fun q _ => ?_
  rw [tblk_at]
  congr 1
  funext ch
  exact xblk_at m c t ch r q

theorem tileD_blk (c : Dev nD) (t : Fin cfg0.N) :
    tileD (tblk m c t) = tileDen (tarr m c) (bOf t) (hOf t) := by
  unfold tileD tileDen
  refine Finset.sum_congr rfl fun r _ => Finset.sum_congr rfl fun q _ => ?_
  rw [tblk_at]
  rfl

/-! ## What the accumulator blocks hold point by point -/

/-- After a first half-image: zero plus its tile sums. -/
theorem outs_even (c : Dev nD) (t : Fin cfg0.N) (h0 : t.val % 2 = 0) :
    outsAt0 m c t.val t.isLt = (fun _ => zeroW + tileN (xblk m c t) (tblk m c t), fun _ => zeroW + tileD (tblk m c t)) := by
  rw [outsAt0_A m c t h0, Prod.mk.injEq]
  exact ⟨out_A_2 c (grid0.coords t) (ms0_0 t) (hs0_0 t) (ms0_1 t) (hs0_1 t) (ms0_2 t) (hs0_2 t) (ms0_3 t) (hs0_3 t)
      ((hcond0_0 t).mpr h0) (xblk m c t) (tblk m c t),
    out_A_3 c (grid0.coords t) (ms0_0 t) (hs0_0 t) (ms0_1 t) (hs0_1 t) (ms0_2 t) (hs0_2 t) (ms0_3 t) (hs0_3 t)
      ((hcond0_0 t).mpr h0) (xblk m c t) (tblk m c t)⟩

/-- After a second half-image: what the first left, plus its tile sums. -/
theorem outs_odd (c : Dev nD) (t : Fin cfg0.N) (h1 : t.val % 2 = 1) :
    outsAt0 m c t.val t.isLt
      = (fun _ => (zeroW + tileN (xblk m c ⟨t.val - 1, by omega⟩) (tblk m c ⟨t.val - 1, by omega⟩)) + tileN (xblk m c t) (tblk m c t),
         fun _ => (zeroW + tileD (tblk m c ⟨t.val - 1, by omega⟩)) + tileD (tblk m c t)) := by
  have hB : ¬t.val % 2 = 0 := by omega
  have hp : outsAt0 m c (t.val - 1) (Nat.lt_of_le_of_lt (Nat.sub_le _ _) t.isLt)
      = (fun _ => zeroW + tileN (xblk m c ⟨t.val - 1, by omega⟩) (tblk m c ⟨t.val - 1, by omega⟩),
         fun _ => zeroW + tileD (tblk m c ⟨t.val - 1, by omega⟩)) :=
    outs_even m c ⟨t.val - 1, by omega⟩ (by show (t.val - 1) % 2 = 0; omega)
  rw [outsAt0_B m c t hB, Prod.mk.injEq]
  refine ⟨(out_B_2 c (grid0.coords t) (ms0_0 t) (hs0_0 t) (ms0_1 t) (hs0_1 t) (ms0_2 t) (hs0_2 t) (ms0_3 t) (hs0_3 t)
      (fun h => hB ((hcond0_0 t).mp h)) (xblk m c t) (tblk m c t)
      (outsAt0 m c (t.val - 1) (Nat.lt_of_le_of_lt (Nat.sub_le _ _) t.isLt)).1
      (outsAt0 m c (t.val - 1) (Nat.lt_of_le_of_lt (Nat.sub_le _ _) t.isLt)).2).trans ?_,
    (out_B_3 c (grid0.coords t) (ms0_0 t) (hs0_0 t) (ms0_1 t) (hs0_1 t) (ms0_2 t) (hs0_2 t) (ms0_3 t) (hs0_3 t)
      (fun h => hB ((hcond0_0 t).mp h)) (xblk m c t) (tblk m c t)
      (outsAt0 m c (t.val - 1) (Nat.lt_of_le_of_lt (Nat.sub_le _ _) t.isLt)).1
      (outsAt0 m c (t.val - 1) (Nat.lt_of_le_of_lt (Nat.sub_le _ _) t.isLt)).2).trans ?_⟩
  · rw [hp]
  · rw [hp]
-- ==== Proof.KernelValue.lean ====
/-
  The kernel's result, read off its run at the extended reals.  The two accumulator blocks of batch entry `b` are
  written back after its second half-image: entry `b` of the two result arrays is the per-batch numerator and
  denominator.  The host lines after the region sum the 16 entries of each and divide, the denominator guarded by `ε`.
-/
import proofs.«430339_j37263136260803_3_alg».proof.Proof.KernelBlocks
import Idealize.ShloMosaic.Lib.StableHlo.Run

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Tile Cert.KernelIdeal.Blocks ValueIdx Cert.Focal

variable (m : (ℓ : Loc nD τ sig) → Buf (Elt Ideal) ℓ) (ρ : Dev nD → PrngReg)

/-! ## The two result arrays -/

/-- Entry `b` of the numerator array: the per-batch numerator. -/
def GN (c : Dev nD) : Vec Ideal S16x1x1 .f32 := fun i => batchNum (xarr m c) (tarr m c) (i 0)
/-- Entry `b` of the denominator array: the per-batch denominator. -/
def GD (c : Dev nD) : Vec Ideal S16x1x1 .f32 := fun i => batchDen (tarr m c) (i 0)

theorem GN_apply (c : Dev nD) (i : S16x1x1.Idx) :
    GN m c i = (zeroW + tileNum (xarr m c) (tarr m c) (i 0) 0) + tileNum (xarr m c) (tarr m c) (i 0) 1 := rfl
theorem GD_apply (c : Dev nD) (i : S16x1x1.Idx) :
    GD m c i = (zeroW + tileDen (tarr m c) (i 0) 0) + tileDen (tarr m c) (i 0) 1 := rfl

/-- The point before an odd point is the first half of the same batch entry. -/
theorem prev_facts (t : Fin cfg0.N) (h1 : t.val % 2 = 1) :
    bOf ⟨t.val - 1, by omega⟩ = bOf t ∧ hOf ⟨t.val - 1, by omega⟩ = (0 : Fin 2) ∧ hOf t = (1 : Fin 2) := by
  refine ⟨Fin.ext ?_, Fin.ext ?_, Fin.ext ?_⟩
  · show (t.val - 1) / 2 = t.val / 2; omega
  · show (t.val - 1) % 2 = 0; omega
  · show t.val % 2 = 1; exact h1

/-- A block holding one value `B` throughout is the block of any array that has `B` at the block's indices. -/
theorem flushed_aux2 (t : Fin cfg0.N) (B : EReal) (G : Vec Ideal S16x1x1 .f32)
    (h : ∀ j, B = G (((cfg0.win 2).blk t).view.emb j)) :
    (cfg0.win 2).cut (grid0.coords t) (fun _ => B) = ((cfg0.win 2).blk t).view.read (Elt Ideal) G := by
  funext j; exact h j

theorem flushed_aux3 (t : Fin cfg0.N) (B : EReal) (G : Vec Ideal S16x1x1 .f32)
    (h : ∀ j, B = G (((cfg0.win 3).blk t).view.emb j)) :
    (cfg0.win 3).cut (grid0.coords t) (fun _ => B) = ((cfg0.win 3).blk t).view.read (Elt Ideal) G := by
  funext j; exact h j

/-- What a write-back point writes back is its block of the per-batch numerators. -/
theorem flushed2_eq (c : Dev nD) (t : Fin cfg0.N) (hf : (cfg0.win 2).flush t = true) :
    (dats m 0 c).flushed 2 t = ((cfg0.win 2).blk t).view.read (Elt Ideal) (GN m c) := by
  have h1 : t.val % 2 = 1 := (flush0_2 t).mp hf
  obtain ⟨-, -, -, -, -, -, -, e0, -⟩ := idx_facts t
  obtain ⟨pb, ph, hh⟩ := prev_facts t h1
  show (cfg0.win 2).cut (grid0.coords t) ((dats m 0 c).after 2 t) = _
  rw [after0_2, outs_odd m c t h1]
  dsimp only
  refine flushed_aux2 t _ (GN m c) (fun j => ?_)
  have hb : (((cfg0.win 2).blk t).view.emb j) 0 = bOf t := by
    apply Fin.ext
    have hj : (j 0).val < 1 := (j 0).isLt
    show win0_2.index t (0 : Fin 3) * 1 + 1 * (j 0).val = t.val / 2
    omega
  rw [tileN_blk, tileN_blk, pb, ph, hh, GN_apply, hb]

theorem flushed3_eq (c : Dev nD) (t : Fin cfg0.N) (hf : (cfg0.win 3).flush t = true) :
    (dats m 0 c).flushed 3 t = ((cfg0.win 3).blk t).view.read (Elt Ideal) (GD m c) := by
  have h1 : t.val % 2 = 1 := (flush0_3 t).mp hf
  obtain ⟨-, -, -, -, -, -, -, -, -, -, e0, -⟩ := idx_facts t
  obtain ⟨pb, ph, hh⟩ := prev_facts t h1
  show (cfg0.win 3).cut (grid0.coords t) ((dats m 0 c).after 3 t) = _
  rw [after0_3, outs_odd m c t h1]
  dsimp only
  refine flushed_aux3 t _ (GD m c) (fun j => ?_)
  have hb : (((cfg0.win 3).blk t).view.emb j) 0 = bOf t := by
    apply Fin.ext
    have hj : (j 0).val < 1 := (j 0).isLt
    show win0_3.index t (0 : Fin 3) * 1 + 1 * (j 0).val = t.val / 2
    omega
  rw [tileD_blk, tileD_blk, pb, ph, hh, GD_apply, hb]

/-- Entry `i` of a result array lies in the block the second half-image of batch entry `i 0` writes back. -/
theorem cover2 (i : S16x1x1.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1 := (i 2).isLt
  let t : Fin cfg0.N := ⟨2 * (i 0).val + 1, by rw [hN]; omega⟩
  have ht : t.val = 2 * (i 0).val + 1 := rfl
  obtain ⟨-, -, -, -, -, -, -, e0, e1, e2, -⟩ := idx_facts t
  refine ⟨t, (flush0_2 t).mpr (by omega), ?_⟩
  show i ∈ ((View.whole main_v0_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

theorem cover3 (i : S16x1x1.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 1 := (i 2).isLt
  let t : Fin cfg0.N := ⟨2 * (i 0).val + 1, by rw [hN]; omega⟩
  have ht : t.val = 2 * (i 0).val + 1 := rfl
  obtain ⟨-, -, -, -, -, -, -, -, -, -, e0, e1, e2⟩ := idx_facts t
  refine ⟨t, (flush0_3 t).mpr (by omega), ?_⟩
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- The two result arrays after the region. -/
theorem final2 (c : Dev nD) : (dats m 0 c).arrAt 2 cfg0.N = GN m c :=
  (dats m 0 c).arrAt_eq_of_cover 2 (GN m c) (flushed2_eq m c) (cover2)
theorem final3 (c : Dev nD) : (dats m 0 c).arrAt 3 cfg0.N = GD m c :=
  (dats m 0 c).arrAt_eq_of_cover 3 (GD m c) (flushed3_eq m c) (cover3)

/-! ## The host lines after the region, and the run -/

/-- The total over the 16 entries of a result array is the sum of its per-batch values. -/
theorem sum16 (g : Fin 16 → EReal) : (∑ i : S16x1x1.Idx, g (i 0)) = ∑ b : Fin 16, g b := by
  refine Fintype.sum_equiv ⟨fun i => i 0, fun b => ix3 b (0 : Fin 1) (0 : Fin 1), fun i => ?_, fun b => rfl⟩ _ _ (fun i => rfl)
  funext a; apply Fin.ext
  match a with
  | ⟨0, _⟩ => rfl
  | ⟨1, _⟩ => have h : (i 1).val < 1 := (i 1).isLt; show 0 = (i 1).val; omega
  | ⟨2, _⟩ => have h : (i 2).val < 1 := (i 2).isLt; show 0 = (i 2).val; omega

/-- The host's sum of a 16-entry result array from `+0.0`: zero plus the sum of its entries. -/
theorem host_total (g : Vec Ideal S16x1x1 .f32) (j : S_.Idx) :
    Host.reduceAdd (F := Ideal) g (constant S_ .f32 0x00000000#32) reducesTo_S16x1x1_S_d0_1_2 h_S_ j
      = zeroW + ∑ i : S16x1x1.Idx, g i := by
  simp only [Host.reduceAdd, Ideal.hostReduceAdd_def]
  exact Ideal.hostReduceAdd_total reducesTo_S16x1x1_S_d0_1_2 (fun b => b.elim0) g _ j

/-- The host lines after the region, over any two 16-entry arrays with known totals: the quotient of the totals from
    zero, the denominator guarded by `ε`. -/
theorem tail_alg (gn gd : Vec Ideal S16x1x1 .f32) (A B : EReal) (hn : (∑ i : S16x1x1.Idx, gn i) = A)
    (hd : (∑ i : S16x1x1.Idx, gd i) = B) (y : S_.Idx) :
    Host.divf (F := Ideal) (Host.reduceAdd (F := Ideal) gn (constant S_ .f32 0x00000000#32) reducesTo_S16x1x1_S_d0_1_2 h_S_)
      (maximumf (Host.reduceAdd (F := Ideal) gd (constant S_ .f32 0x00000000#32) reducesTo_S16x1x1_S_d0_1_2 h_S_)
        (constant S_ .f32 0x322BCC77#32)) y
      = Ideal.div (zeroW + A) (max (zeroW + B) epsW) := by
  show FloatOps.hostDivf
      (Host.reduceAdd (F := Ideal) gn (constant S_ .f32 0x00000000#32) reducesTo_S16x1x1_S_d0_1_2 h_S_ y)
      (FloatOps.maximumf
        (Host.reduceAdd (F := Ideal) gd (constant S_ .f32 0x00000000#32) reducesTo_S16x1x1_S_d0_1_2 h_S_ y)
        (constant (F := Ideal) S_ .f32 0x322BCC77#32 y)) = _
  rw [host_total, host_total, hn, hd]
  rfl

theorem xarr_eq (c : Dev nD) : xarr m c = m ((c.tc : Thread nD τ).loc main_arg0) := V_main_arg0 m c
theorem tarr_eq (c : Dev nD) : tarr m c = m ((c.tc : Thread nD τ).loc main_arg1) := V_main_arg1 m c

/-- What the lines after the region leave in the result buffer: the loss. -/
theorem tail_result (c : Dev nD) :
    Pipeline.afterTail₀ cfgs (dats m) 0 (V0 m) [hostOps1] c main_v4 = fun _ => lossK (xarr m c) (tarr m c) := by
  have hsn : (∑ i : S16x1x1.Idx, GN m c i) = ∑ b : Fin 16, batchNum (xarr m c) (tarr m c) b :=
    sum16 (fun b => batchNum (xarr m c) (tarr m c) b)
  have hsd : (∑ i : S16x1x1.Idx, GD m c i) = ∑ b : Fin 16, batchDen (tarr m c) b :=
    sum16 (fun b => batchDen (tarr m c) b)
  unfold Pipeline.afterTail₀
  show StableHlo.after hostOps1 _ (Proc.devRef .tc main_v4) = _
  after_results
  have e2 : Pipeline.withArrays (cfgs 0).spec c (V0 m c) (fun w => (dats m 0 c).arrAt w (cfgs 0).N)
      (Proc.devRef .tc main_v0_0) = GN m c :=
    (Pipeline.withArrays_arr spec0 launch0.win.arr_inj c _ _ 2).trans (final2 m c)
  have e3 : Pipeline.withArrays (cfgs 0).spec c (V0 m c) (fun w => (dats m 0 c).arrAt w (cfgs 0).N)
      (Proc.devRef .tc main_v0_1) = GD m c :=
    (Pipeline.withArrays_arr spec0 launch0.win.arr_inj c _ _ 3).trans (final3 m c)
  rw [e2, e3]
  funext y
  refine (tail_alg (GN m c) (GD m c) _ _ hsn hsd y).trans ?_
  unfold lossK
  rfl

/-- THE RUN, read: the result buffer ends at the loss of the argument arrays, which end unchanged. -/
theorem run : θ_run defs (onTc (τ := τ) (main (F := Ideal))) ⟨m, fun _ => 0, ρ⟩ fun r => ∀ c : Dev nD,
      r.2.mem ((c.tc : Thread nD τ).loc main_v4)
        = (fun _ => lossK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(((h c).2 main_v4 (Pipeline.mem_restRefs_of main_v4 rfl (by decide))).trans (tail_result m c)).trans
        (by rw [xarr_eq, tarr_eq]),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.RefRunValue.lean ====
/-
  The reference program's run, read stage by stage. The program is a straight line of 99 host operations; the
  value each operation writes is a function of the two arguments (the `val_` terms, one per operation, each the
  operation's function of its operands' `val_` terms). The line is cut into nine consecutive stretches. For each
  stretch and ANY valuation of the buffers that holds the arguments and the `val_` terms of the few buffers read
  later, the valuation after the stretch holds the arguments, the carried terms, and the `val_` terms of the
  buffers the stretch writes that are read later. Chained over the nine stretches: after the whole line the
  result buffer holds `val_main_v42` of the arguments, and the arguments are unchanged.
-/
import proofs.«430339_j37263136260803_3_alg».proof.Proof.RefReadP

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- Transport along an equation and back is the identity. -/
theorem cast_cast_cancel {α β : Type} (h : β = α) (h' : α = β) (v : α) : cast h (cast h' v) = v := by
  cases h'; rfl

/-- The fold over a concatenation is the fold over the second line from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (x0 : (⟨S16x19x512x512, .f32⟩ : BufTy).Contents (Elt F)) (x1 : (⟨S16x512x512, .i32⟩ : BufTy).Contents (Elt F))
  (W : Valuation τ sig (Elt F))

/-! ## The nine stretches

An operation of an outlined function reads and writes its buffers through transport along the equation "the buffer's
type is T" its typed reference carries. Both sides of that equation compute to the same literal type, so each transport is
the identity (`cast_eq`): inside a stretch a write's transport meets a read's and the two cancel; where an operation of
@main reads what an outlined function's operation wrote, or the other way round, the one transport is removed by its
own equation, stated where it is used. -/

/-- Operations 1 to 11: the label mask (label ≠ 255), and the logits less their maximum over the classes. -/
abbrev c1 : List (HloOp τ sig (Elt F)) :=
  [ nullary main_c (constantI S_ 32 255#32),
    unary main_c main_v0 (broadcastInDim S16x512x512 ![] bcast_S_S16x512x512 : (⟨S_, .i32⟩ : BufTy).Contents (Elt F) → (⟨S16x512x512, .i32⟩ : BufTy).Contents (Elt F)),
    binary main_arg1 main_v0 main_v1 (cmpi .ne : (⟨S16x512x512, .i32⟩ : BufTy).Contents (Elt F) → (⟨S16x512x512, .i32⟩ : BufTy).Contents (Elt F) → (⟨S16x512x512, .i1⟩ : BufTy).Contents (Elt F)),
    TRef.nullary (TRef.of (T := ⟨S_, .f32⟩) main_call0_cst) (constant S_ .f32 0xFF800000#32),
    TRef.binary (TRef.of (T := ⟨S16x19x512x512, .f32⟩) main_arg0) (TRef.of (T := ⟨S_, .f32⟩) main_call0_cst) (TRef.of (T := ⟨S16x512x512, .f32⟩) main_call0_v0) (fun x v => Host.reduce FloatOps.maximumf x v reducesTo_S16x19x512x512_S16x512x512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16x512x512, .f32⟩) main_call0_v1) (broadcastInDim S16x512x512 ![] bcast_S_S16x512x512),
    TRef.binary (TRef.of (T := ⟨S16x512x512, .f32⟩) main_call0_v1) (TRef.of (T := ⟨S16x512x512, .f32⟩) main_call0_v0) (TRef.of (T := ⟨S16x512x512, .f32⟩) main_call0_v2) maximumf,
    TRef.unary (TRef.of (T := ⟨S16x512x512, .f32⟩) main_call0_v2) (TRef.of (T := ⟨S16x1x512x512, .f32⟩) main_call0_v3) (broadcastInDim S16x1x512x512 ![0, 2, 3] bcast_S16x512x512_S16x1x512x512_0_2_3),
    TRef.unary (TRef.of (T := ⟨S16x1x512x512, .f32⟩) main_call0_v3) (TRef.of (T := ⟨S16x19x512x512, .f32⟩) main_call0_v4) (broadcastInDim S16x19x512x512 ![0, 1, 2, 3] bcast_S16x1x512x512_S16x19x512x512_0_1_2_3),
    TRef.binary (TRef.of (T := ⟨S16x19x512x512, .f32⟩) main_arg0) (TRef.of (T := ⟨S16x19x512x512, .f32⟩) main_call0_v4) (TRef.of (T := ⟨S16x19x512x512, .f32⟩) main_call0_v5) subf ]

theorem stage1
    (h0 : W (Proc.devRef .tc main_arg0) = x0) (h1 : W (Proc.devRef .tc main_arg1) = x1) :
    after (c1 (F := F)) W (Proc.devRef .tc main_arg0) = x0
    ∧ after (c1 (F := F)) W (Proc.devRef .tc main_arg1) = x1
    ∧ after (c1 (F := F)) W (Proc.devRef .tc main_v1) = val_main_v1 (F := F) x1
    ∧ after (c1 (F := F)) W (Proc.devRef .tc main_call0_v5) = val_main_call0_v5 (F := F) x0 := by
  have h0' : (TRef.of (T := ⟨S16x19x512x512, .f32⟩) main_arg0).ofBuf (W (Proc.devRef .tc main_arg0)) = x0 :=
    (cast_eq _ _).trans h0
  refine ⟨?_, ?_, ?_, ?_⟩
  · after_results_simp; exact h0
  · after_results_simp; exact h1
  · after_results_simp; rw [h1]; rfl
  · after_results_simp
    simp only [cast_cast_cancel]
    rw [h0']
    exact (cast_eq _ _).trans rfl

/-- Operations 12 to 18: the log of the sum of exponentials over the classes, and the log-softmax. -/
abbrev c2 : List (HloOp τ sig (Elt F)) :=
  [ TRef.unary (TRef.of (T := ⟨S16x19x512x512, .f32⟩) main_call0_v5) (TRef.of (T := ⟨S16x19x512x512, .f32⟩) main_call0_v6) Host.exp,
    TRef.nullary (TRef.of (T := ⟨S_, .f32⟩) main_call0_cst_1) (constant S_ .f32 0x00000000#32),
    TRef.binary (TRef.of (T := ⟨S16x19x512x512, .f32⟩) main_call0_v6) (TRef.of (T := ⟨S_, .f32⟩) main_call0_cst_1) (TRef.of (T := ⟨S16x512x512, .f32⟩) main_call0_v7) (fun x v => Host.reduceAdd x v reducesTo_S16x19x512x512_S16x512x512_d1 h_S_),
    TRef.unary (TRef.of (T := ⟨S16x512x512, .f32⟩) main_call0_v7) (TRef.of (T := ⟨S16x1x512x512, .f32⟩) main_call0_v8) (broadcastInDim S16x1x512x512 ![0, 2, 3] bcast_S16x512x512_S16x1x512x512_0_2_3),
    TRef.unary (TRef.of (T := ⟨S16x1x512x512, .f32⟩) main_call0_v8) (TRef.of (T := ⟨S16x1x512x512, .f32⟩) main_call0_v9) Host.log,
    TRef.unary (TRef.of (T := ⟨S16x1x512x512, .f32⟩) main_call0_v9) (TRef.of (T := ⟨S16x19x512x512, .f32⟩) main_call0_v10) (broadcastInDim S16x19x512x512 ![0, 1, 2, 3] bcast_S16x1x512x512_S16x19x512x512_0_1_2_3),
    TRef.binary (TRef.of (T := ⟨S16x19x512x512, .f32⟩) main_call0_v5) (TRef.of (T := ⟨S16x19x512x512, .f32⟩) main_call0_v10) (TRef.of (T := ⟨S16x19x512x512, .f32⟩) main_v2) subf ]

theorem stage2
    (h0 : W (Proc.devRef .tc main_arg0) = x0) (h1 : W (Proc.devRef .tc main_arg1) = x1)
    (hv1 : W (Proc.devRef .tc main_v1) = val_main_v1 (F := F) x1)
    (h5 : W (Proc.devRef .tc main_call0_v5) = val_main_call0_v5 (F := F) x0) :
    after (c2 (F := F)) W (Proc.devRef .tc main_arg0) = x0
    ∧ after (c2 (F := F)) W (Proc.devRef .tc main_arg1) = x1
    ∧ after (c2 (F := F)) W (Proc.devRef .tc main_v1) = val_main_v1 (F := F) x1
    ∧ after (c2 (F := F)) W (Proc.devRef .tc main_v2) = val_main_v2 (F := F) x0 := by
  have h5' : (TRef.of (T := ⟨S16x19x512x512, .f32⟩) main_call0_v5).ofBuf (W (Proc.devRef .tc main_call0_v5))
      = val_main_call0_v5 (F := F) x0 := (cast_eq _ _).trans h5
  refine ⟨?_, ?_, ?_, ?_⟩
  · after_results_simp; exact h0
  · after_results_simp; exact h1
  · after_results_simp; exact hv1
  · after_results_simp
    simp only [cast_cast_cancel]
    rw [h5']
    exact (cast_eq _ _).trans rfl

/-- Operations 19 to 31: the label with 255 replaced by 0, wrapped into [0, 19), with a trailing unit axis (the gather's index). -/
abbrev c3 : List (HloOp τ sig (Elt F)) :=
  [ nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S16x512x512, .i32⟩) main_call1_v1) (broadcastInDim S16x512x512 ![] bcast_S_S16x512x512),
    TRef.ternary (TRef.of (T := ⟨S16x512x512, .i1⟩) main_v1) (TRef.of (T := ⟨S16x512x512, .i32⟩) main_arg1) (TRef.of (T := ⟨S16x512x512, .i32⟩) main_call1_v1) (TRef.of (T := ⟨S16x512x512, .i32⟩) main_v3) select,
    unary main_v3 main_v4 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16x1x512x512, .i32⟩) main_call2_v0) (broadcastInDim S16x1x512x512 ![] bcast_S_S16x1x512x512),
    TRef.binary (TRef.of (T := ⟨S16x1x512x512, .i32⟩) main_v4) (TRef.of (T := ⟨S16x1x512x512, .i32⟩) main_call2_v0) (TRef.of (T := ⟨S16x1x512x512, .i1⟩) main_call2_v1) (cmpi .slt),
    TRef.nullary (TRef.of (T := ⟨S_, .i32⟩) main_call2_c_0) (constantI S_ 32 19#32),
    TRef.unary (TRef.of (T := ⟨S_, .i32⟩) main_call2_c_0) (TRef.of (T := ⟨S16x1x512x512, .i32⟩) main_call2_v2) (broadcastInDim S16x1x512x512 ![] bcast_S_S16x1x512x512),
    TRef.binary (TRef.of (T := ⟨S16x1x512x512, .i32⟩) main_v4) (TRef.of (T := ⟨S16x1x512x512, .i32⟩) main_call2_v2) (TRef.of (T := ⟨S16x1x512x512, .i32⟩) main_call2_v3) addi,
    TRef.ternary (TRef.of (T := ⟨S16x1x512x512, .i1⟩) main_call2_v1) (TRef.of (T := ⟨S16x1x512x512, .i32⟩) main_call2_v3) (TRef.of (T := ⟨S16x1x512x512, .i32⟩) main_v4) (TRef.of (T := ⟨S16x1x512x512, .i32⟩) main_call2_v4) select,
    TRef.reshape (TRef.of (T := ⟨S16x1x512x512, .i32⟩) main_call2_v4) (TRef.of (T := ⟨S16x1x512x512x1, .i32⟩) main_call2_v5) rfl shapeCasts_S16x1x512x512_S16x1x512x512x1 ]

theorem stage3
    (h0 : W (Proc.devRef .tc main_arg0) = x0) (h1 : W (Proc.devRef .tc main_arg1) = x1)
    (hv1 : W (Proc.devRef .tc main_v1) = val_main_v1 (F := F) x1)
    (hv2 : W (Proc.devRef .tc main_v2) = val_main_v2 (F := F) x0) :
    after (c3 (F := F)) W (Proc.devRef .tc main_arg0) = x0
    ∧ after (c3 (F := F)) W (Proc.devRef .tc main_arg1) = x1
    ∧ after (c3 (F := F)) W (Proc.devRef .tc main_v1) = val_main_v1 (F := F) x1
    ∧ after (c3 (F := F)) W (Proc.devRef .tc main_v2) = val_main_v2 (F := F) x0
    ∧ after (c3 (F := F)) W (Proc.devRef .tc main_call2_v5) = val_main_call2_v5 (F := F) x1 := by
  have h1' : (TRef.of (T := ⟨S16x512x512, .i32⟩) main_arg1).ofBuf (W (Proc.devRef .tc main_arg1)) = x1 :=
    (cast_eq _ _).trans h1
  have hv1' : (TRef.of (T := ⟨S16x512x512, .i1⟩) main_v1).ofBuf (W (Proc.devRef .tc main_v1))
      = val_main_v1 (F := F) x1 := (cast_eq _ _).trans hv1
  have ec0 : ∀ v, (TRef.of (T := ⟨S_, .i32⟩) main_c_0).ofBuf (Val := Elt F) v = v := fun v => cast_eq _ _
  have e3 : ∀ v, (TRef.of (T := ⟨S16x512x512, .i32⟩) main_v3).toBuf (Val := Elt F) v = v := fun v => cast_eq _ _
  have e4 : ∀ v, (TRef.of (T := ⟨S16x1x512x512, .i32⟩) main_v4).ofBuf (Val := Elt F) v = v := fun v => cast_eq _ _
  have e24 : ∀ v, (TRef.of (T := ⟨S16x1x512x512, .i32⟩) main_call2_v4).toBuf (Val := Elt F) v = v := fun v => cast_eq _ _
  refine ⟨?_, ?_, ?_, ?_, ?_⟩
  · after_results_simp; exact h0
  · after_results_simp; exact h1
  · after_results_simp; exact hv1
  · after_results_simp; exact hv2
  · after_results_simp
    simp only [cast_cast_cancel, ec0, e3, e4, e24]
    try simp only [h1', hv1']
    try simp only [h1, hv1]
    rfl

/-- Operations 32 to 45: the log-softmax gathered at the label's class where the index is in range, not-a-number elsewhere. -/
abbrev c4 : List (HloOp τ sig (Elt F)) :=
  [ TRef.nullary (TRef.of (T := ⟨S1, .i32⟩) main_call2_c_1) (constantI S1 32 18#32),
    TRef.nullary (TRef.of (T := ⟨S_, .i32⟩) main_call2_c_2) (constantI S_ 32 0#32),
    TRef.unary (TRef.of (T := ⟨S_, .i32⟩) main_call2_c_2) (TRef.of (T := ⟨S16x1x512x512x1, .i32⟩) main_call2_v6) (broadcastInDim S16x1x512x512x1 ![] bcast_S_S16x1x512x512x1),
    TRef.binary (TRef.of (T := ⟨S16x1x512x512x1, .i32⟩) main_call2_v5) (TRef.of (T := ⟨S16x1x512x512x1, .i32⟩) main_call2_v6) (TRef.of (T := ⟨S16x1x512x512x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S16x1x512x512x1, .i32⟩) main_call2_v9) (broadcastInDim S16x1x512x512x1 ![0, 1, 2, 3, 4] bcast_S1x1x1x1x1_S16x1x512x512x1_0_1_2_3_4),
    TRef.binary (TRef.of (T := ⟨S16x1x512x512x1, .i32⟩) main_call2_v5) (TRef.of (T := ⟨S16x1x512x512x1, .i32⟩) main_call2_v9) (TRef.of (T := ⟨S16x1x512x512x1, .i1⟩) main_call2_v10) (cmpi .sle),
    TRef.binary (TRef.of (T := ⟨S16x1x512x512x1, .i1⟩) main_call2_v7) (TRef.of (T := ⟨S16x1x512x512x1, .i1⟩) main_call2_v10) (TRef.of (T := ⟨S16x1x512x512x1, .i1⟩) main_call2_v11) andi,
    TRef.nullary (TRef.of (T := ⟨S_, .i1⟩) main_call2_c_3) (constantI S_ 1 1#1),
    TRef.binary (TRef.of (T := ⟨S16x1x512x512x1, .i1⟩) main_call2_v11) (TRef.of (T := ⟨S_, .i1⟩) main_call2_c_3) (TRef.of (T := ⟨S16x1x512x512, .i1⟩) main_call2_v12) (fun x v => Host.reduce IntOp.andi x v reducesTo_S16x1x512x512x1_S16x1x512x512_d4 h_S_),
    TRef.binary (TRef.of (T := ⟨S16x19x512x512, .f32⟩) main_v2) (TRef.of (T := ⟨S16x1x512x512x1, .i32⟩) main_call2_v5) (TRef.of (T := ⟨S16x1x512x512, .f32⟩) main_call2_v13) (fun x i => Host.gather gather_S16x19x512x512_S16x1x512x512x1_S16x1x512x512_n_1_023_023_1_4_1111 x i),
    TRef.nullary (TRef.of (T := ⟨S_, .f32⟩) main_call2_cst) (constant S_ .f32 0x7FC00000#32),
    TRef.unary (TRef.of (T := ⟨S_, .f32⟩) main_call2_cst) (TRef.of (T := ⟨S16x1x512x512, .f32⟩) main_call2_v14) (broadcastInDim S16x1x512x512 ![] bcast_S_S16x1x512x512),
    TRef.ternary (TRef.of (T := ⟨S16x1x512x512, .i1⟩) main_call2_v12) (TRef.of (T := ⟨S16x1x512x512, .f32⟩) main_call2_v13) (TRef.of (T := ⟨S16x1x512x512, .f32⟩) main_call2_v14) (TRef.of (T := ⟨S16x1x512x512, .f32⟩) main_v5) select ]

theorem stage4
    (h0 : W (Proc.devRef .tc main_arg0) = x0) (h1 : W (Proc.devRef .tc main_arg1) = x1)
    (hv1 : W (Proc.devRef .tc main_v1) = val_main_v1 (F := F) x1)
    (hv2 : W (Proc.devRef .tc main_v2) = val_main_v2 (F := F) x0)
    (h25 : W (Proc.devRef .tc main_call2_v5) = val_main_call2_v5 (F := F) x1) :
    after (c4 (F := F)) W (Proc.devRef .tc main_arg0) = x0
    ∧ after (c4 (F := F)) W (Proc.devRef .tc main_arg1) = x1
    ∧ after (c4 (F := F)) W (Proc.devRef .tc main_v1) = val_main_v1 (F := F) x1
    ∧ after (c4 (F := F)) W (Proc.devRef .tc main_v5) = val_main_v5 (F := F) x0 x1 := by
  have hv2' : (TRef.of (T := ⟨S16x19x512x512, .f32⟩) main_v2).ofBuf (W (Proc.devRef .tc main_v2))
      = val_main_v2 (F := F) x0 := (cast_eq _ _).trans hv2
  have h25' : (TRef.of (T := ⟨S16x1x512x512x1, .i32⟩) main_call2_v5).ofBuf (W (Proc.devRef .tc main_call2_v5))
      = val_main_call2_v5 (F := F) x1 := (cast_eq _ _).trans h25
  refine ⟨?_, ?_, ?_, ?_⟩
  · after_results_simp; exact h0
  · after_results_simp; exact h1
  · after_results_simp; exact hv1
  · after_results_simp
    simp only [cast_cast_cancel]
    try simp only [hv2', h25']
    try simp only [hv2, h25]
    exact (cast_eq _ _).trans rfl

/-- Operations 46 to 53: the negated log-probability of the label, zero where the label is 255, and the exponential of its negation. -/
abbrev c5 : List (HloOp τ sig (Elt F)) :=
  [ reshape main_v5 main_v6 rfl shapeCasts_S16x1x512x512_S16x512x512,
    unary main_v6 main_v7 (Host.negf : (⟨S16x512x512, .f32⟩ : BufTy).Contents (Elt F) → (⟨S16x512x512, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S16x512x512, .f32⟩) main_call3_v1) (broadcastInDim S16x512x512 ![] bcast_S_S16x512x512),
    TRef.ternary (TRef.of (T := ⟨S16x512x512, .i1⟩) main_v1) (TRef.of (T := ⟨S16x512x512, .f32⟩) main_v7) (TRef.of (T := ⟨S16x512x512, .f32⟩) main_call3_v1) (TRef.of (T := ⟨S16x512x512, .f32⟩) main_v8) select,
    unary main_v8 main_v9 (Host.negf : (⟨S16x512x512, .f32⟩ : BufTy).Contents (Elt F) → (⟨S16x512x512, .f32⟩ : BufTy).Contents (Elt F)),
    unary main_v9 main_v10 (Host.exp : (⟨S16x512x512, .f32⟩ : BufTy).Contents (Elt F) → (⟨S16x512x512, .f32⟩ : BufTy).Contents (Elt F)) ]

theorem stage5
    (h0 : W (Proc.devRef .tc main_arg0) = x0) (h1 : W (Proc.devRef .tc main_arg1) = x1)
    (hv1 : W (Proc.devRef .tc main_v1) = val_main_v1 (F := F) x1)
    (hv5 : W (Proc.devRef .tc main_v5) = val_main_v5 (F := F) x0 x1) :
    after (c5 (F := F)) W (Proc.devRef .tc main_arg0) = x0
    ∧ after (c5 (F := F)) W (Proc.devRef .tc main_arg1) = x1
    ∧ after (c5 (F := F)) W (Proc.devRef .tc main_v1) = val_main_v1 (F := F) x1
    ∧ after (c5 (F := F)) W (Proc.devRef .tc main_v8) = val_main_v8 (F := F) x0 x1
    ∧ after (c5 (F := F)) W (Proc.devRef .tc main_v10) = val_main_v10 (F := F) x0 x1 := by
  have hv1' : (TRef.of (T := ⟨S16x512x512, .i1⟩) main_v1).ofBuf (W (Proc.devRef .tc main_v1))
      = val_main_v1 (F := F) x1 := (cast_eq _ _).trans hv1
  have ecst : ∀ v, (TRef.of (T := ⟨S_, .f32⟩) main_cst).ofBuf (Val := Elt F) v = v := fun v => cast_eq _ _
  have e7 : ∀ v, (TRef.of (T := ⟨S16x512x512, .f32⟩) main_v7).ofBuf (Val := Elt F) v = v := fun v => cast_eq _ _
  have e8 : ∀ v, (TRef.of (T := ⟨S16x512x512, .f32⟩) main_v8).toBuf (Val := Elt F) v = v := fun v => cast_eq _ _
  refine ⟨?_, ?_, ?_, ?_, ?_⟩
  · after_results_simp; exact h0
  · after_results_simp; exact h1
  · after_results_simp; exact hv1
  · after_results_simp
    simp only [cast_cast_cancel, ecst, e7, e8]
    try simp only [hv1']
    try simp only [hv1, hv5]
    rfl
  · after_results_simp
    simp only [cast_cast_cancel, ecst, e7, e8]
    try simp only [hv1']
    try simp only [hv1, hv5]
    rfl

/-- Operations 54 to 64: the focal weight times the loss per pixel, and the label mask as a float. -/
abbrev c6 : List (HloOp τ sig (Elt F)) :=
  [ nullary main_cst_1 (constant S_ .f32 0x3F800000#32),
    unary main_cst_1 main_v11 (broadcastInDim S16x512x512 ![] bcast_S_S16x512x512 : (⟨S_, .f32⟩ : BufTy).Contents (Elt F) → (⟨S16x512x512, .f32⟩ : BufTy).Contents (Elt F)),
    binary main_v11 main_v10 main_v12 (subf : (⟨S16x512x512, .f32⟩ : BufTy).Contents (Elt F) → (⟨S16x512x512, .f32⟩ : BufTy).Contents (Elt F) → (⟨S16x512x512, .f32⟩ : BufTy).Contents (Elt F)),
    nullary main_cst_2 (constant S_ .f32 0x3F800000#32),
    unary main_cst_2 main_v13 (broadcastInDim S16x512x512 ![] bcast_S_S16x512x512 : (⟨S_, .f32⟩ : BufTy).Contents (Elt F) → (⟨S16x512x512, .f32⟩ : BufTy).Contents (Elt F)),
    binary main_v12 main_v13 main_v14 (Host.powf : (⟨S16x512x512, .f32⟩ : BufTy).Contents (Elt F) → (⟨S16x512x512, .f32⟩ : BufTy).Contents (Elt F) → (⟨S16x512x512, .f32⟩ : BufTy).Contents (Elt F)),
    nullary main_cst_3 (constant S_ .f32 0x3F800000#32),
    unary main_cst_3 main_v15 (broadcastInDim S16x512x512 ![] bcast_S_S16x512x512 : (⟨S_, .f32⟩ : BufTy).Contents (Elt F) → (⟨S16x512x512, .f32⟩ : BufTy).Contents (Elt F)),
    binary main_v15 main_v14 main_v16 (mulf : (⟨S16x512x512, .f32⟩ : BufTy).Contents (Elt F) → (⟨S16x512x512, .f32⟩ : BufTy).Contents (Elt F) → (⟨S16x512x512, .f32⟩ : BufTy).Contents (Elt F)),
    binary main_v16 main_v8 main_v17 (mulf : (⟨S16x512x512, .f32⟩ : BufTy).Contents (Elt F) → (⟨S16x512x512, .f32⟩ : BufTy).Contents (Elt F) → (⟨S16x512x512, .f32⟩ : BufTy).Contents (Elt F)),
    unary main_v1 main_v18 (uitofp (F := F) .f32 : (⟨S16x512x512, .i1⟩ : BufTy).Contents (Elt F) → (⟨S16x512x512, .f32⟩ : BufTy).Contents (Elt F)) ]

theorem stage6
    (h0 : W (Proc.devRef .tc main_arg0) = x0) (h1 : W (Proc.devRef .tc main_arg1) = x1)
    (hv1 : W (Proc.devRef .tc main_v1) = val_main_v1 (F := F) x1)
    (hv8 : W (Proc.devRef .tc main_v8) = val_main_v8 (F := F) x0 x1)
    (hv10 : W (Proc.devRef .tc main_v10) = val_main_v10 (F := F) x0 x1) :
    after (c6 (F := F)) W (Proc.devRef .tc main_arg0) = x0
    ∧ after (c6 (F := F)) W (Proc.devRef .tc main_arg1) = x1
    ∧ after (c6 (F := F)) W (Proc.devRef .tc main_v17) = val_main_v17 (F := F) x0 x1
    ∧ after (c6 (F := F)) W (Proc.devRef .tc main_v18) = val_main_v18 (F := F) x1 := by
  refine ⟨?_, ?_, ?_, ?_⟩
  · after_results_simp; exact h0
  · after_results_simp; exact h1
  · after_results_simp; simp only [hv8, hv10]; rfl
  · after_results_simp; simp only [hv1]; rfl

/-- Operations 65 to 75: the mask padded by a zero border, and the maximum of the mask and its four neighbours. -/
abbrev c7 : List (HloOp τ sig (Elt F)) :=
  [ nullary main_c_4 (constantI S_ 32 0#32),
    TRef.unary (TRef.of (T := ⟨S_, .i32⟩) main_c_4) (TRef.of (T := ⟨S_, .f32⟩) main_call4_v0) (sitofp (F := F) .f32),
    TRef.binary (TRef.of (T := ⟨S16x512x512, .f32⟩) main_v18) (TRef.of (T := ⟨S_, .f32⟩) main_call4_v0) (TRef.of (T := ⟨S16x514x514, .f32⟩) main_v19) (fun x v => pad S16x514x514 ![0, 1, 1] ![0, 1, 1] ![0, 0, 0] x v pads_S16x512x512_S16x514x514_000_110_110 h_S_),
    unary main_v19 main_v20 ((extractStridedSlice S16x512x512 ![0, 0, 1] · slices_S16x514x514_S16x512x512_0_0_1) : (⟨S16x514x514, .f32⟩ : BufTy).Contents (Elt F) → (⟨S16x512x512, .f32⟩ : BufTy).Contents (Elt F)),
    unary main_v19 main_v21 ((extractStridedSlice S16x512x512 ![0, 2, 1] · slices_S16x514x514_S16x512x512_0_2_1) : (⟨S16x514x514, .f32⟩ : BufTy).Contents (Elt F) → (⟨S16x512x512, .f32⟩ : BufTy).Contents (Elt F)),
    binary main_v20 main_v21 main_v22 (maximumf : (⟨S16x512x512, .f32⟩ : BufTy).Contents (Elt F) → (⟨S16x512x512, .f32⟩ : BufTy).Contents (Elt F) → (⟨S16x512x512, .f32⟩ : BufTy).Contents (Elt F)),
    unary main_v19 main_v23 ((extractStridedSlice S16x512x512 ![0, 1, 0] · slices_S16x514x514_S16x512x512_0_1_0) : (⟨S16x514x514, .f32⟩ : BufTy).Contents (Elt F) → (⟨S16x512x512, .f32⟩ : BufTy).Contents (Elt F)),
    unary main_v19 main_v24 ((extractStridedSlice S16x512x512 ![0, 1, 2] · slices_S16x514x514_S16x512x512_0_1_2) : (⟨S16x514x514, .f32⟩ : BufTy).Contents (Elt F) → (⟨S16x512x512, .f32⟩ : BufTy).Contents (Elt F)),
    binary main_v23 main_v24 main_v25 (maximumf : (⟨S16x512x512, .f32⟩ : BufTy).Contents (Elt F) → (⟨S16x512x512, .f32⟩ : BufTy).Contents (Elt F) → (⟨S16x512x512, .f32⟩ : BufTy).Contents (Elt F)),
    binary main_v22 main_v25 main_v26 (maximumf : (⟨S16x512x512, .f32⟩ : BufTy).Contents (Elt F) → (⟨S16x512x512, .f32⟩ : BufTy).Contents (Elt F) → (⟨S16x512x512, .f32⟩ : BufTy).Contents (Elt F)),
    binary main_v18 main_v26 main_v27 (maximumf : (⟨S16x512x512, .f32⟩ : BufTy).Contents (Elt F) → (⟨S16x512x512, .f32⟩ : BufTy).Contents (Elt F) → (⟨S16x512x512, .f32⟩ : BufTy).Contents (Elt F)) ]

theorem stage7
    (h0 : W (Proc.devRef .tc main_arg0) = x0) (h1 : W (Proc.devRef .tc main_arg1) = x1)
    (hv17 : W (Proc.devRef .tc main_v17) = val_main_v17 (F := F) x0 x1)
    (hv18 : W (Proc.devRef .tc main_v18) = val_main_v18 (F := F) x1) :
    after (c7 (F := F)) W (Proc.devRef .tc main_arg0) = x0
    ∧ after (c7 (F := F)) W (Proc.devRef .tc main_arg1) = x1
    ∧ after (c7 (F := F)) W (Proc.devRef .tc main_v17) = val_main_v17 (F := F) x0 x1
    ∧ after (c7 (F := F)) W (Proc.devRef .tc main_v18) = val_main_v18 (F := F) x1
    ∧ after (c7 (F := F)) W (Proc.devRef .tc main_v27) = val_main_v27 (F := F) x1 := by
  have hv18' : (TRef.of (T := ⟨S16x512x512, .f32⟩) main_v18).ofBuf (W (Proc.devRef .tc main_v18))
      = val_main_v18 (F := F) x1 := (cast_eq _ _).trans hv18
  have ec4 : ∀ v, (TRef.of (T := ⟨S_, .i32⟩) main_c_4).ofBuf (Val := Elt F) v = v := fun v => cast_eq _ _
  have e19 : ∀ v, (TRef.of (T := ⟨S16x514x514, .f32⟩) main_v19).toBuf (Val := Elt F) v = v := fun v => cast_eq _ _
  refine ⟨?_, ?_, ?_, ?_, ?_⟩
  · after_results_simp; exact h0
  · after_results_simp; exact h1
  · after_results_simp; exact hv17
  · after_results_simp; exact hv18
  · after_results_simp
    simp only [cast_cast_cancel, ec4, e19]
    try simp only [hv18']
    try simp only [hv18]
    rfl

/-- Operations 76 to 87: the boundary indicator (a neighbour is set where the pixel is not), and the per-pixel weight it selects. -/
abbrev c8 : List (HloOp τ sig (Elt F)) :=
  [ nullary main_cst_5 (constant S_ .f32 0x3F800000#32),
    unary main_cst_5 main_v28 (broadcastInDim S16x512x512 ![] bcast_S_S16x512x512 : (⟨S_, .f32⟩ : BufTy).Contents (Elt F) → (⟨S16x512x512, .f32⟩ : BufTy).Contents (Elt F)),
    binary main_v28 main_v18 main_v29 (subf : (⟨S16x512x512, .f32⟩ : BufTy).Contents (Elt F) → (⟨S16x512x512, .f32⟩ : BufTy).Contents (Elt F) → (⟨S16x512x512, .f32⟩ : BufTy).Contents (Elt F)),
    binary main_v27 main_v29 main_v30 (mulf : (⟨S16x512x512, .f32⟩ : BufTy).Contents (Elt F) → (⟨S16x512x512, .f32⟩ : BufTy).Contents (Elt F) → (⟨S16x512x512, .f32⟩ : BufTy).Contents (Elt F)),
    nullary main_cst_6 (constant S_ .f32 0x00000000#32),
    unary main_cst_6 main_v31 (broadcastInDim S16x512x512 ![] bcast_S_S16x512x512 : (⟨S_, .f32⟩ : BufTy).Contents (Elt F) → (⟨S16x512x512, .f32⟩ : BufTy).Contents (Elt F)),
    binary main_v30 main_v31 main_v32 (cmpf (F := F) .ogt : (⟨S16x512x512, .f32⟩ : BufTy).Contents (Elt F) → (⟨S16x512x512, .f32⟩ : BufTy).Contents (Elt F) → (⟨S16x512x512, .i1⟩ : BufTy).Contents (Elt F)),
    nullary main_cst_7 (constant S_ .f32 0x3E4CCCCD#32),
    nullary main_cst_8 (constant S_ .f32 0x3F800000#32),
    TRef.unary (TRef.of (T := ⟨S_, .f32⟩) main_cst_7) (TRef.of (T := ⟨S16x512x512, .f32⟩) main_call5_v0) (broadcastInDim S16x512x512 ![] bcast_S_S16x512x512),
    TRef.unary (TRef.of (T := ⟨S_, .f32⟩) main_cst_8) (TRef.of (T := ⟨S16x512x512, .f32⟩) main_call5_v1) (broadcastInDim S16x512x512 ![] bcast_S_S16x512x512),
    TRef.ternary (TRef.of (T := ⟨S16x512x512, .i1⟩) main_v32) (TRef.of (T := ⟨S16x512x512, .f32⟩) main_call5_v0) (TRef.of (T := ⟨S16x512x512, .f32⟩) main_call5_v1) (TRef.of (T := ⟨S16x512x512, .f32⟩) main_v33) select ]

theorem stage8
    (h0 : W (Proc.devRef .tc main_arg0) = x0) (h1 : W (Proc.devRef .tc main_arg1) = x1)
    (hv17 : W (Proc.devRef .tc main_v17) = val_main_v17 (F := F) x0 x1)
    (hv18 : W (Proc.devRef .tc main_v18) = val_main_v18 (F := F) x1)
    (hv27 : W (Proc.devRef .tc main_v27) = val_main_v27 (F := F) x1) :
    after (c8 (F := F)) W (Proc.devRef .tc main_arg0) = x0
    ∧ after (c8 (F := F)) W (Proc.devRef .tc main_arg1) = x1
    ∧ after (c8 (F := F)) W (Proc.devRef .tc main_v17) = val_main_v17 (F := F) x0 x1
    ∧ after (c8 (F := F)) W (Proc.devRef .tc main_v18) = val_main_v18 (F := F) x1
    ∧ after (c8 (F := F)) W (Proc.devRef .tc main_v33) = val_main_v33 (F := F) x1 := by
  have ec7 : ∀ v, (TRef.of (T := ⟨S_, .f32⟩) main_cst_7).ofBuf (Val := Elt F) v = v := fun v => cast_eq _ _
  have ec8 : ∀ v, (TRef.of (T := ⟨S_, .f32⟩) main_cst_8).ofBuf (Val := Elt F) v = v := fun v => cast_eq _ _
  have e32 : ∀ v, (TRef.of (T := ⟨S16x512x512, .i1⟩) main_v32).ofBuf (Val := Elt F) v = v := fun v => cast_eq _ _
  refine ⟨?_, ?_, ?_, ?_, ?_⟩
  · after_results_simp; exact h0
  · after_results_simp; exact h1
  · after_results_simp; exact hv17
  · after_results_simp; exact hv18
  · after_results_simp
    simp only [cast_cast_cancel, ec7, ec8, e32]
    try simp only [hv18, hv27]
    exact (cast_eq _ _).trans rfl

/-- Operations 88 to 99: the weighted loss summed over all pixels, over the summed weight of the unmasked pixels (at least a small constant). -/
abbrev c9 : List (HloOp τ sig (Elt F)) :=
  [ binary main_v17 main_v18 main_v34 (mulf : (⟨S16x512x512, .f32⟩ : BufTy).Contents (Elt F) → (⟨S16x512x512, .f32⟩ : BufTy).Contents (Elt F) → (⟨S16x512x512, .f32⟩ : BufTy).Contents (Elt F)),
    unary main_v33 main_v35 (id : (⟨S16x512x512, .f32⟩ : BufTy).Contents (Elt F) → (⟨S16x512x512, .f32⟩ : BufTy).Contents (Elt F)),
    binary main_v34 main_v35 main_v36 (mulf : (⟨S16x512x512, .f32⟩ : BufTy).Contents (Elt F) → (⟨S16x512x512, .f32⟩ : BufTy).Contents (Elt F) → (⟨S16x512x512, .f32⟩ : BufTy).Contents (Elt F)),
    unary main_v33 main_v37 (id : (⟨S16x512x512, .f32⟩ : BufTy).Contents (Elt F) → (⟨S16x512x512, .f32⟩ : BufTy).Contents (Elt F)),
    binary main_v18 main_v37 main_v38 (mulf : (⟨S16x512x512, .f32⟩ : BufTy).Contents (Elt F) → (⟨S16x512x512, .f32⟩ : BufTy).Contents (Elt F) → (⟨S16x512x512, .f32⟩ : BufTy).Contents (Elt F)),
    nullary main_cst_9 (constant S_ .f32 0x00000000#32),
    binary main_v38 main_cst_9 main_v39 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)),
    nullary main_cst_10 (constant S_ .f32 0x322BCC77#32),
    binary main_v39 main_cst_10 main_v40 (maximumf : (⟨S_, .f32⟩ : BufTy).Contents (Elt F) → (⟨S_, .f32⟩ : BufTy).Contents (Elt F) → (⟨S_, .f32⟩ : BufTy).Contents (Elt F)),
    nullary main_cst_11 (constant S_ .f32 0x00000000#32),
    binary main_v36 main_cst_11 main_v41 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)),
    binary main_v41 main_v40 main_v42 (Host.divf : (⟨S_, .f32⟩ : BufTy).Contents (Elt F) → (⟨S_, .f32⟩ : BufTy).Contents (Elt F) → (⟨S_, .f32⟩ : BufTy).Contents (Elt F)) ]

theorem stage9
    (h0 : W (Proc.devRef .tc main_arg0) = x0) (h1 : W (Proc.devRef .tc main_arg1) = x1)
    (hv17 : W (Proc.devRef .tc main_v17) = val_main_v17 (F := F) x0 x1)
    (hv18 : W (Proc.devRef .tc main_v18) = val_main_v18 (F := F) x1)
    (hv33 : W (Proc.devRef .tc main_v33) = val_main_v33 (F := F) x1) :
    after (c9 (F := F)) W (Proc.devRef .tc main_arg0) = x0
    ∧ after (c9 (F := F)) W (Proc.devRef .tc main_arg1) = x1
    ∧ after (c9 (F := F)) W (Proc.devRef .tc main_v42) = val_main_v42 (F := F) x0 x1 := by
  refine ⟨?_, ?_, ?_⟩
  · after_results_simp; exact h0
  · after_results_simp; exact h1
  · after_results_simp; simp only [hv17, hv18, hv33]; rfl

/-! ## The whole line -/

/-- The program's line of operations is the nine stretches, in order. -/
theorem ops_eq : (Value.ops (F := F)) = c1 ++ (c2 ++ (c3 ++ (c4 ++ (c5 ++ (c6 ++ (c7 ++ (c8 ++ c9))))))) := rfl

/-- After the whole line from any valuation: the result buffer holds `val_main_v42` of the arguments' contents, and the
    arguments are unchanged. -/
theorem fold (V : Valuation τ sig (Elt F)) :
    after (Value.ops (F := F)) V (Proc.devRef .tc main_v42)
        = val_main_v42 (F := F) (V (Proc.devRef .tc main_arg0)) (V (Proc.devRef .tc main_arg1))
    ∧ after (Value.ops (F := F)) V (Proc.devRef .tc main_arg0) = V (Proc.devRef .tc main_arg0)
    ∧ after (Value.ops (F := F)) V (Proc.devRef .tc main_arg1) = V (Proc.devRef .tc main_arg1) := by
  rw [ops_eq]
  simp only [after_append]
  obtain ⟨a0, a1, a_v1, a_5⟩ := stage1 _ _ V rfl rfl
  obtain ⟨b0, b1, b_v1, b_v2⟩ := stage2 _ _ _ a0 a1 a_v1 a_5
  obtain ⟨c0, c1', c_v1, c_v2, c_25⟩ := stage3 _ _ _ b0 b1 b_v1 b_v2
  obtain ⟨d0, d1, d_v1, d_v5⟩ := stage4 _ _ _ c0 c1' c_v1 c_v2 c_25
  obtain ⟨e0, e1, e_v1, e_v8, e_v10⟩ := stage5 _ _ _ d0 d1 d_v1 d_v5
  obtain ⟨f0, f1, f_v17, f_v18⟩ := stage6 _ _ _ e0 e1 e_v1 e_v8 e_v10
  obtain ⟨g0, g1, g_v17, g_v18, g_v27⟩ := stage7 _ _ _ f0 f1 f_v17 f_v18
  obtain ⟨i0, i1, i_v17, i_v18, i_v33⟩ := stage8 _ _ _ g0 g1 g_v17 g_v18 g_v27
  obtain ⟨j0, j1, j_v42⟩ := stage9 _ _ _ i0 i1 i_v17 i_v18 i_v33
  exact ⟨j_v42, j0, j1⟩

/-- On every device, from any memory with zero counters: every weakly fair execution of the reference's @main terminates
    with the result buffer at `val_main_v42` of the arguments' launch contents, and the arguments unchanged. -/
theorem run_any (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v42) = Cert.ReferenceIdeal.Read.val_main_v42 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (Cert.ReferenceIdeal.defs (F := F)) _ _).mono (fun _ h c =>
      have f := fold (F := F) (launchContents m c)
      ⟨(h c main_v42).trans f.1, (h c main_arg0).trans f.2.1, (h c main_arg1).trans f.2.2⟩)
    (Value.run_raw (F := F) m ρ)

/-- The same at the extended reals. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v42) = Cert.ReferenceIdeal.Read.val_main_v42 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run_any (F := Ideal) m ρ

end Cert.ReferenceIdeal.RefValue

end
-- ==== Proof.PixelMath.lean ====
/-
  One pixel of the focal loss, in the two arrangements, and the sum over all pixels.

  For a pixel with real channel values `x c` (19 channels) and a label word that is a class `k` in 0 … 18 or the
  "ignore" word 255: the channel maximum taken left to right and the fold of `max` from `-∞` are the same least
  upper bound `M`, and it is one of the `x c`, hence real; the left-to-right sums are the sums over the 19
  channels, so `S = ∑_c exp (x c - M)` is the same positive real in both; the select-by-label sum keeps the one
  term `x k - M`; a class label is valid, not negative, in range, and clamped to itself. Both cross entropies are
  then the real number `log S - (x k - M)` (one as `-((x k - M) - log S)`), the power `1` of a real is itself, and
  the boundary weight at a valid pixel is `1` because `D · (1 - 1) = 0` for every extended real `D`. At an ignored
  pixel both summands carry the factor `0`. Over the array, a pixel index is a batch entry, a row and a lane, and a
  row is a half of the image and a row of that half.
-/
import proofs.«430339_j37263136260803_3_alg».proof.Proof.Spec
import Idealize.ShloMosaic.PureOps.Ideal
import Idealize.ShloMosaic.Lib.ValueIdx
import Mathlib.Data.EReal.Basic
import Mathlib.Data.EReal.Operations
import Mathlib.Data.Finset.Fold
import Mathlib.Data.Fintype.BigOperators
import Mathlib.Algebra.BigOperators.Fin
import Mathlib.Analysis.SpecialFunctions.Pow.Real

noncomputable section

namespace Cert.Focal

open Idealize.ShloMosaic ValueIdx
open scoped BigOperators

/-! ## The printed constants -/

theorem zeroW_eq : zeroW = 0 := by simp [Ideal.ofBits, Ideal.ieee]

theorem oneW_eq : oneW = 1 := by
  simp [Ideal.ofBits, Ideal.ieee, -EReal.coe_mul] <;> norm_num

theorem negInfW_eq : negInfW = ⊥ := by simp [Ideal.ofBits, Ideal.ieee]

theorem one_sub_one : (1 : EReal) - 1 = 0 := by
  rw [← EReal.coe_one, ← EReal.coe_sub, sub_self, EReal.coe_zero]

/-! ## The label words -/

theorem valid_ignore : valid 255#32 = 0#1 := by decide

theorem valid_label : ∀ k : Fin 19, valid (BitVec.ofNat 32 k.val) = 1#1 := by decide

theorem safeK_label : ∀ k : Fin 19, safeK (BitVec.ofNat 32 k.val) = BitVec.ofNat 32 k.val := by decide

theorem inbR_label : ∀ k : Fin 19, inbR (BitVec.ofNat 32 k.val) = 1#1 := by decide

theorem clampR_label : ∀ k : Fin 19, clampR (BitVec.ofNat 32 k.val) = k := by decide

theorem eq_label (tw : BitVec 32) (h : tw.toNat ≤ 18) : ∃ k : Fin 19, tw = BitVec.ofNat 32 k.val :=
  ⟨⟨tw.toNat, by omega⟩, by simp⟩

/-! ## A word compare against a channel number -/

theorem select_eq_word {α : Type} (st : BitVec 32) (n : ℕ) (hn : n < 19) (a z : α) :
    Scalar.select (IntOp.cmpi .eq st (BitVec.ofNat 32 n)) a z = if st.toNat = n then a else z := by
  by_cases h : st.toNat = n
  · have hst : st = BitVec.ofNat 32 n := by
      apply BitVec.eq_of_toNat_eq
      rw [BitVec.toNat_ofNat, h]
      exact (Nat.mod_eq_of_lt (by omega)).symm
    rw [if_pos h, hst]
    simp [Scalar.select, IntOp.cmpi]
  · have hst : st ≠ BitVec.ofNat 32 n := by
      intro hst
      apply h
      rw [hst, BitVec.toNat_ofNat]
      exact Nat.mod_eq_of_lt (by omega)
    have hb : (st == BitVec.ofNat 32 n) = false := beq_eq_false_iff_ne.mpr hst
    rw [if_neg h]
    simp [Scalar.select, IntOp.cmpi, hb]

/-! ## Sums over the 19 channels, taken left to right -/

/-- A function of the channel, continued by zero to every natural number. -/
def chan (g : Fin 19 → EReal) (i : ℕ) : EReal := if h : i < 19 then g ⟨i, h⟩ else 0

theorem chan_lt (g : Fin 19 → EReal) {i : ℕ} (h : i < 19) : chan g i = g ⟨i, h⟩ := dif_pos h

theorem sum_chan (g : Fin 19 → EReal) : ∑ i ∈ Finset.range 19, chan g i = ∑ c : Fin 19, g c := by
  rw [← Fin.sum_univ_eq_sum_range]
  exact Finset.sum_congr rfl fun c _ => chan_lt g c.isLt

theorem sumExpUpTo_eq (xs : Px) (M : EReal) : ∀ (n : ℕ) (h : n < 19),
    sumExpUpTo xs M n h = zeroW + ∑ i ∈ Finset.range (n + 1), chan (fun c => Ideal.exp (xs c - M)) i
  | 0, h => by
    rw [sumExpUpTo, Finset.sum_range_one, chan_lt _ h]; rfl
  | n + 1, h => by
    rw [sumExpUpTo, sumExpUpTo_eq xs M n (Nat.lt_of_succ_lt h), Finset.sum_range_succ _ (n + 1), ← add_assoc,
      chan_lt _ h]

theorem sumExpUpTo_all (xs : Px) (M : EReal) :
    sumExpUpTo xs M 18 (by decide) = zeroW + ∑ c : Fin 19, Ideal.exp (xs c - M) := by
  rw [sumExpUpTo_eq, sum_chan]

theorem selUpTo_eq (xs : Px) (M : EReal) (st : BitVec 32) : ∀ (n : ℕ) (h : n < 19),
    selUpTo xs M st n h = zeroW + ∑ i ∈ Finset.range (n + 1),
      chan (fun c => Scalar.select (IntOp.cmpi .eq st (BitVec.ofNat 32 c.val)) (xs c - M) zeroW) i
  | 0, h => by
    rw [selUpTo, Finset.sum_range_one, chan_lt _ h]; rfl
  | n + 1, h => by
    rw [selUpTo, selUpTo_eq xs M st n (Nat.lt_of_succ_lt h), Finset.sum_range_succ _ (n + 1), ← add_assoc,
      chan_lt _ h]

/-- With the label word a class `k`, the select-by-label sum keeps channel `k`'s term alone. -/
theorem selUpTo_label (xs : Px) (M : EReal) (k : Fin 19) :
    selUpTo xs M (BitVec.ofNat 32 k.val) 18 (by decide) = xs k - M := by
  rw [selUpTo_eq, sum_chan, zeroW_eq, zero_add]
  have hk : (BitVec.ofNat 32 k.val).toNat = k.val := by
    rw [BitVec.toNat_ofNat]; exact Nat.mod_eq_of_lt (by have := k.isLt; omega)
  have : ∀ c : Fin 19, Scalar.select (IntOp.cmpi .eq (BitVec.ofNat 32 k.val) (BitVec.ofNat 32 c.val)) (xs c - M) 0
      = if k = c then xs c - M else 0 := by
    intro c
    rw [select_eq_word _ _ c.isLt, hk]
    by_cases hkc : k = c
    · rw [if_pos hkc, if_pos (congrArg Fin.val hkc)]
    · rw [if_neg hkc, if_neg (fun h => hkc (Fin.ext h))]
  rw [Finset.sum_congr rfl fun c _ => this c, Finset.sum_ite_eq]
  simp

/-! ## The channel maximum -/

theorem maxUpTo_le_iff (xs : Px) (z : EReal) : ∀ (n : ℕ) (h : n < 19),
    maxUpTo xs n h ≤ z ↔ ∀ c : Fin 19, c.val ≤ n → xs c ≤ z
  | 0, h => by
    rw [maxUpTo]
    constructor
    · intro hz c hc
      have : c = 0 := Fin.ext (by simpa using hc)
      rw [this]; exact hz
    · intro H; exact H 0 (le_refl _)
  | n + 1, h => by
    rw [maxUpTo, max_le_iff, maxUpTo_le_iff xs z n (Nat.lt_of_succ_lt h)]
    constructor
    · rintro ⟨h1, h2⟩ c hc
      rcases Nat.lt_or_ge c.val (n + 1) with hlt | hge
      · exact h1 c (by omega)
      · have : c = ⟨n + 1, h⟩ := Fin.ext (by simp; omega)
        rw [this]; exact h2
    · intro H
      exact ⟨fun c hc => H c (by omega), H ⟨n + 1, h⟩ (le_refl _)⟩

theorem maxK_le_iff (xs : Px) (z : EReal) : maxK xs ≤ z ↔ ∀ c, xs c ≤ z := by
  rw [maxK, maxUpTo_le_iff]
  constructor
  · intro H c; exact H c (by have := c.isLt; omega)
  · intro H c _; exact H c

theorem maxR_le_iff (xs : Px) (z : EReal) : maxR xs ≤ z ↔ ∀ c, xs c ≤ z := by
  rw [maxR, negInfW_eq, max_le_iff, Finset.fold_max_le]
  simp

/-- The running maximum and the fold of `max` from `-∞` are the same least upper bound. -/
theorem maxK_eq_maxR (xs : Px) : maxK xs = maxR xs :=
  eq_of_forall_ge_iff fun z => by rw [maxK_le_iff, maxR_le_iff]

theorem maxUpTo_mem (xs : Px) : ∀ (n : ℕ) (h : n < 19), ∃ c, maxUpTo xs n h = xs c
  | 0, _ => ⟨0, rfl⟩
  | n + 1, h => by
    obtain ⟨c, hc⟩ := maxUpTo_mem xs n (Nat.lt_of_succ_lt h)
    rw [maxUpTo]
    rcases max_choice (maxUpTo xs n (Nat.lt_of_succ_lt h)) (xs ⟨n + 1, h⟩) with h1 | h1
    · exact ⟨c, by rw [h1, hc]⟩
    · exact ⟨_, h1⟩

/-! ## Finite sums of reals inside the extended reals -/

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The validity weights and the boundary weight -/

theorem valid_cases (tw : BitVec 32) : valid tw = 0#1 ∨ valid tw = 1#1 :=
  BitVec.eq_zero_or_eq_one (valid tw)

theorem vmR_of_valid {tw : BitVec 32} (h : valid tw = 1#1) : vmR tw = 1 := by
  show (((valid tw).toNat : ℝ) : EReal) = 1
  rw [h]; simp

theorem vmR_of_ignore {tw : BitVec 32} (h : valid tw = 0#1) : vmR tw = 0 := by
  show (((valid tw).toNat : ℝ) : EReal) = 0
  rw [h]; simp

theorem vmK_of_valid {tw : BitVec 32} (h : valid tw = 1#1) : vmK tw = 1 := by
  show (((((valid tw).setWidth 32).toInt : ℤ) : ℝ) : EReal) = 1
  rw [h]; simp

theorem vmK_of_ignore {tw : BitVec 32} (h : valid tw = 0#1) : vmK tw = 0 := by
  show (((((valid tw).setWidth 32).toInt : ℤ) : ℝ) : EReal) = 0
  rw [h]; simp

/-- At a valid pixel the dilated validity meets `1 - 1 = 0`, and `D · 0 = 0` whatever `D`: the weight is `1`. -/
theorem wgtR_of_valid {tw : BitVec 32} (h : valid tw = 1#1) (D : EReal) : wgtR tw D = 1 := by
  show Scalar.select (Ideal.cmp .ogt (D * (oneW - vmR tw)) zeroW) fifthW oneW = 1
  rw [vmR_of_valid h, oneW_eq, zeroW_eq, one_sub_one, mul_zero]
  simp [Ideal.cmp, Scalar.select]

theorem denR_eq_vmK (tw : BitVec 32) (D : EReal) : denR tw D = vmK tw := by
  unfold denR
  rcases valid_cases tw with h | h
  · rw [vmR_of_ignore h, vmK_of_ignore h, zero_mul]
  · rw [vmR_of_valid h, vmK_of_valid h, wgtR_of_valid h, mul_one]

/-! ## The cross entropy of a valid pixel, in the reals -/

/-- With real logits and a class label `k`, both arrangements give the real number `log S - (x k - M)`. -/
theorem ce_label (xs : Px) (hx : ∀ c, xs c ≠ ⊤ ∧ xs c ≠ ⊥) (k : Fin 19) :
    ∃ L : ℝ, ceK xs (BitVec.ofNat 32 k.val) = (L : EReal) ∧ ceR xs (BitVec.ofNat 32 k.val) = (L : EReal) := by
  -- real witnesses for the logits and for their maximum
  have hy : ∀ c, xs c = (((xs c).toReal : ℝ) : EReal) := fun c => (EReal.coe_toReal (hx c).1 (hx c).2).symm
  obtain ⟨c0, hc0⟩ := maxUpTo_mem xs 18 (by decide)
  have hM : maxK xs = (((xs c0).toReal : ℝ) : EReal) := by rw [maxK, hc0]; exact hy c0
  have hMR : maxR xs = (((xs c0).toReal : ℝ) : EReal) := by rw [← maxK_eq_maxR, hM]
  -- the sum of exponentials is a positive real
  have hS : sumExpR xs = ((∑ c : Fin 19, Real.exp ((xs c).toReal - (xs c0).toReal) : ℝ) : EReal) := by
    rw [sumExpR, zeroW_eq, zero_add, hMR, ← coe_sum]
    refine Finset.sum_congr rfl fun c _ => ?_
    conv_lhs => rw [hy c]
    rw [← EReal.coe_sub, Ideal.exp_coe]
  have hpos : 0 < ∑ c : Fin 19, Real.exp ((xs c).toReal - (xs c0).toReal) :=
    Finset.sum_pos (fun c _ => Real.exp_pos _) Finset.univ_nonempty
  have hlog : Ideal.log (sumExpR xs)
      = ((Real.log (∑ c : Fin 19, Real.exp ((xs c).toReal - (xs c0).toReal)) : ℝ) : EReal) := by
    rw [hS, Ideal.log_coe, if_neg (not_le.mpr hpos)]
  have hd : xs k - maxR xs = (((xs k).toReal - (xs c0).toReal : ℝ) : EReal) := by
    rw [hMR]; conv_lhs => rw [hy k]
    rw [← EReal.coe_sub]
  refine ⟨Real.log (∑ c : Fin 19, Real.exp ((xs c).toReal - (xs c0).toReal)) - ((xs k).toReal - (xs c0).toReal), ?_, ?_⟩
  · unfold ceK
    rw [valid_label, select_one, safeK_label, selUpTo_label, sumExpUpTo_all, maxK_eq_maxR]
    show Ideal.log (sumExpR xs) - (xs k - maxR xs) = _
    rw [hlog, hd, ← EReal.coe_sub]
  · unfold ceR takeR
    rw [valid_label, select_one, inbR_label, select_one, clampR_label]
    unfold logpR
    rw [hlog, hd, ← EReal.coe_sub, ← EReal.coe_neg, neg_sub]

/-- The two printed forms of the focal term agree at a real cross entropy. -/
theorem focal_real (L : ℝ) :
    (oneW * Ideal.pow (oneW - Ideal.exp (-(L : EReal))) oneW) * (L : EReal)
      = (oneW * (oneW - Ideal.exp (zeroW - (L : EReal)))) * (L : EReal) := by
  rw [zeroW_eq, zero_sub, oneW_eq, ← EReal.coe_neg, Ideal.exp_coe, ← EReal.coe_one, ← EReal.coe_sub,
    Ideal.pow_coe_coe]
  congr 3
  exact Real.rpow_one _

theorem numR_eq_numK (xs : Px) (tw : BitVec 32) (D : EReal) (hx : ∀ c, xs c ≠ ⊤ ∧ xs c ≠ ⊥)
    (ht : tw = 255#32 ∨ tw.toNat ≤ 18) : numR xs tw D = numK xs tw := by
  unfold numR numK
  rcases ht with rfl | ht
  · rw [vmR_of_ignore valid_ignore, vmK_of_ignore valid_ignore, mul_zero, zero_mul, mul_zero]
  · obtain ⟨k, rfl⟩ := eq_label tw ht
    obtain ⟨L, hK, hR⟩ := ce_label xs hx k
    rw [vmR_of_valid (valid_label k), vmK_of_valid (valid_label k), wgtR_of_valid (valid_label k), mul_one, mul_one,
      mul_one]
    unfold focalR
    rw [hK, hR]
    exact focal_real L

/-! ## Sums over the pixels -/

/-- A pixel index is its batch entry, its row and its lane. -/
def idx3Equiv : ST.Idx ≃ Fin 16 × Fin 512 × Fin 512 where
  toFun i := (i 0, i 1, i 2)
  invFun p := ix3 p.1 p.2.1 p.2.2
  left_inv i := (eq_ix3 i).symm
  right_inv _ := rfl

theorem sum_idx3 (g : ST.Idx → EReal) :
    ∑ i, g i = ∑ b : Fin 16, ∑ r : Fin 512, ∑ q : Fin 512, g (ix3 b r q) := by
  rw [← Equiv.sum_comp idx3Equiv.symm g, Fintype.sum_prod_type]
  refine Finset.sum_congr rfl fun b _ => ?_
  rw [Fintype.sum_prod_type]
  rfl

/-- A row of the image is a half and a row of that half. -/
def rowEquiv : Fin 2 × Fin 256 ≃ Fin 512 where
  toFun p := rowOf p.1 p.2
  invFun r := (⟨r.val / 256, by have := r.isLt; omega⟩, ⟨r.val % 256, Nat.mod_lt _ (by decide)⟩)
  left_inv p := by
    obtain ⟨h, r⟩ := p
    have := h.isLt; have := r.isLt
    refine Prod.ext (Fin.ext ?_) (Fin.ext ?_)
    · show (256 * h.val + r.val) / 256 = h.val
      omega
    · show (256 * h.val + r.val) % 256 = r.val
      omega
  right_inv r := by
    refine Fin.ext ?_
    show 256 * (r.val / 256) + r.val % 256 = r.val
    omega

theorem sum_rows (g : Fin 512 → EReal) :
    ∑ r, g r = ∑ r : Fin 256, g (rowOf 0 r) + ∑ r : Fin 256, g (rowOf 1 r) := by
  rw [← Equiv.sum_comp rowEquiv g, Fintype.sum_prod_type, Fin.sum_univ_two]
  rfl

theorem sum_pixels (f : Fin 16 → Fin 512 → Fin 512 → EReal) :
    (∑ i : ST.Idx, f (i 0) (i 1) (i 2))
      = ∑ b : Fin 16, ((zeroW + ∑ r : Fin 256, ∑ q : Fin 512, f b (rowOf 0 r) q)
          + ∑ r : Fin 256, ∑ q : Fin 512, f b (rowOf 1 r) q) := by
  rw [sum_idx3 (fun i => f (i 0) (i 1) (i 2))]
  refine Finset.sum_congr rfl fun b _ => ?_
  rw [zeroW_eq, zero_add]
  exact sum_rows (fun r => ∑ q : Fin 512, f b r q)

theorem lossR_eq_lossK (x : SX.Idx → EReal) (t : ST.Idx → BitVec 32) (D : ST.Idx → EReal)
    (hx : ∀ i, x i ≠ ⊤ ∧ x i ≠ ⊥) (ht : ∀ j, t j = 255#32 ∨ (t j).toNat ≤ 18) :
    lossR (fun i => numR (pxAt x (i 0) (i 1) (i 2)) (twAt t (i 0) (i 1) (i 2)) (D i))
        (fun i => denR (twAt t (i 0) (i 1) (i 2)) (D i)) = lossK x t := by
  have hn : (fun i : ST.Idx => numR (pxAt x (i 0) (i 1) (i 2)) (twAt t (i 0) (i 1) (i 2)) (D i))
      = fun i => numK (pxAt x (i 0) (i 1) (i 2)) (twAt t (i 0) (i 1) (i 2)) :=
    funext fun i => numR_eq_numK _ _ _ (fun c => hx _) (ht _)
  have hd : (fun i : ST.Idx => denR (twAt t (i 0) (i 1) (i 2)) (D i))
      = fun i => vmK (twAt t (i 0) (i 1) (i 2)) :=
    funext fun i => denR_eq_vmK _ _
  rw [hn, hd]
  unfold lossR lossK
  rw [sum_pixels (fun b r q => numK (pxAt x b r q) (twAt t b r q)),
    sum_pixels (fun b r q => vmK (twAt t b r q))]
  rfl

end Cert.Focal

end
-- ==== Proof.RefPixel.lean ====
/-
  The reference program read at one pixel.

  At pixel `(b, r, q)`, with `xs c` the 19 channel values and `tw` the label word there, each stretch of the
  reference's operations is the per-pixel function of the same name in the specification: the channel maximum (a
  fold of `max` from `-∞` over the channel axis, then the elementwise maximum with `-∞`) is `maxR xs`; the sum of
  the shifted exponentials from `0` is `sumExpR xs`; their difference with the logarithm is `logpR xs c`; the
  label with "ignore" replaced, wrapped once and tested for range is `safeR`, `wrapR`, `inbR` (the test's
  reduction runs over an axis of extent one: the single element `and`ed with `true`); the gather, whose three
  other axes are batching, reads channel `min (start read signed) 18` of the same pixel, which is `clampR tw`;
  then the cross entropy, the focal term, the validity weight and the boundary weight, whose dilated validity
  stays the unopened value `D` of that pixel. The two products are `numR` and `denR`, the two sums over every
  index with the guarded quotient are `lossR`, and with the per-pixel equalities of the two arrangements the
  reference's result is the kernel's arrangement `lossK`.
-/
import proofs.«430339_j37263136260803_3_alg».proof.Proof.RefReadP
import proofs.«430339_j37263136260803_3_alg».proof.Proof.Spec
import proofs.«430339_j37263136260803_3_alg».proof.Proof.PixelMath
import Idealize.ShloMosaic.PureOps.Reduce
import Idealize.ShloMosaic.PureOps.Ideal.Laws
import Idealize.ShloMosaic.Lib.ValueIdx

noncomputable section

namespace Cert.RefPixel

open Idealize.ShloMosaic ValueIdx Cert.Focal Cert.ReferenceIdeal Cert.ReferenceIdeal.Read
open scoped BigOperators

/-! ## Indices of one pixel through the layout operations -/

theorem idx_v4_at (b : Fin 16) (r q : Fin 512) : idx_main_v4 (ix4 b (0 : Fin 1) r q) = ix3 b r q := by
  funext a; match a with | ⟨0, _⟩ => rfl | ⟨1, _⟩ => rfl | ⟨2, _⟩ => rfl

theorem idx_c0v3_at (b : Fin 16) (r q : Fin 512) : idx_main_call0_v3 (ix4 b (0 : Fin 1) r q) = ix3 b r q := by
  funext a; match a with | ⟨0, _⟩ => rfl | ⟨1, _⟩ => rfl | ⟨2, _⟩ => rfl

theorem idx_c0v8_at (b : Fin 16) (r q : Fin 512) : idx_main_call0_v8 (ix4 b (0 : Fin 1) r q) = ix3 b r q := by
  funext a; match a with | ⟨0, _⟩ => rfl | ⟨1, _⟩ => rfl | ⟨2, _⟩ => rfl

theorem idx_c0v4_at (b : Fin 16) (c : Fin 19) (r q : Fin 512) :
    idx_main_call0_v4 (ix4 b c r q) = ix4 b (0 : Fin 1) r q := by
  funext a; match a with | ⟨0, _⟩ => rfl | ⟨1, _⟩ => rfl | ⟨2, _⟩ => rfl | ⟨3, _⟩ => rfl

theorem idx_c0v10_at (b : Fin 16) (c : Fin 19) (r q : Fin 512) :
    idx_main_call0_v10 (ix4 b c r q) = ix4 b (0 : Fin 1) r q := by
  funext a; match a with | ⟨0, _⟩ => rfl | ⟨1, _⟩ => rfl | ⟨2, _⟩ => rfl | ⟨3, _⟩ => rfl

theorem idx_c0v7_at (b : Fin 16) (r q : Fin 512) (k : Fin 19) :
    idx_main_call0_v7 (ix3 b r q) k = ix4 b k r q := by
  funext a; match a with | ⟨0, _⟩ => rfl | ⟨1, _⟩ => rfl | ⟨2, _⟩ => rfl | ⟨3, _⟩ => rfl

theorem idx_c2v5_at (b : Fin 16) (r q : Fin 512) :
    idx_main_call2_v5 (ix5 b (0 : Fin 1) r q (0 : Fin 1)) = ix4 b (0 : Fin 1) r q := by
  have hb := b.isLt; have hr := r.isLt; have hq := q.isLt
  funext a
  match a with
  | ⟨0, _⟩ =>
    refine Fin.ext ?_
    show ((((b.val * 1 + 0) * 512 + r.val) * 512 + q.val) * 1 + 0) / 262144 = b.val
    omega
  | ⟨1, _⟩ => rfl
  | ⟨2, _⟩ =>
    refine Fin.ext ?_
    show ((((b.val * 1 + 0) * 512 + r.val) * 512 + q.val) * 1 + 0) / 512 % 512 = r.val
    omega
  | ⟨3, _⟩ =>
    refine Fin.ext ?_
    show ((((b.val * 1 + 0) * 512 + r.val) * 512 + q.val) * 1 + 0) % 512 = q.val
    omega

theorem idx_v6_at (b : Fin 16) (r q : Fin 512) : idx_main_v6 (ix3 b r q) = ix4 b (0 : Fin 1) r q := by
  have hb := b.isLt; have hr := r.isLt; have hq := q.isLt
  funext a
  match a with
  | ⟨0, _⟩ =>
    refine Fin.ext ?_
    show ((b.val * 512 + r.val) * 512 + q.val) / 262144 = b.val
    omega
  | ⟨1, _⟩ => rfl
  | ⟨2, _⟩ =>
    refine Fin.ext ?_
    show ((b.val * 512 + r.val) * 512 + q.val) / 512 % 512 = r.val
    omega
  | ⟨3, _⟩ =>
    refine Fin.ext ?_
    show ((b.val * 512 + r.val) * 512 + q.val) % 512 = q.val
    omega

/-! ## The label of a pixel: validity, the safe label, the wrapped label -/

theorem v1_at (t : ST.Idx → BitVec 32) (b : Fin 16) (r q : Fin 512) :
    val_main_v1 (F := Ideal) t (ix3 b r q) = valid (twAt t b r q) := by
  rw [val_main_v1_apply, val_main_v0_apply, val_main_c_apply]; rfl

theorem v18_at (t : ST.Idx → BitVec 32) (b : Fin 16) (r q : Fin 512) :
    val_main_v18 (F := Ideal) t (ix3 b r q) = vmR (twAt t b r q) := by
  rw [val_main_v18_apply, v1_at]; rfl

theorem v3_at (t : ST.Idx → BitVec 32) (b : Fin 16) (r q : Fin 512) :
    val_main_v3 (F := Ideal) t (ix3 b r q) = safeR (twAt t b r q) := by
  rw [val_main_v3_apply, v1_at, val_main_call1_v1_apply, val_main_call1_v0_apply, val_main_c_0_apply]; rfl

theorem v4_at (t : ST.Idx → BitVec 32) (b : Fin 16) (r q : Fin 512) :
    val_main_v4 (F := Ideal) t (ix4 b (0 : Fin 1) r q) = safeR (twAt t b r q) := by
  rw [val_main_v4_apply, idx_v4_at, v3_at]

theorem wrap_at (t : ST.Idx → BitVec 32) (b : Fin 16) (r q : Fin 512) :
    val_main_call2_v4 (F := Ideal) t (ix4 b (0 : Fin 1) r q) = wrapR (twAt t b r q) := by
  rw [val_main_call2_v4_apply, val_main_call2_v1_apply, val_main_call2_v3_apply, v4_at, val_main_call2_v0_apply,
    val_main_call2_c_apply, val_main_call2_v2_apply, val_main_call2_c_0_apply]
  rfl

theorem start_at (t : ST.Idx → BitVec 32) (b : Fin 16) (r q : Fin 512) :
    val_main_call2_v5 (F := Ideal) t (ix5 b (0 : Fin 1) r q (0 : Fin 1)) = wrapR (twAt t b r q) := by
  rw [val_main_call2_v5_apply, idx_c2v5_at, wrap_at]

/-! ## The in-range mask: an `and` over a unit axis -/

local instance andiComm : Std.Commutative (IntOp.andi : BitVec 1 → BitVec 1 → BitVec 1) := ⟨fun x y => BitVec.and_comm x y⟩
local instance andiAssoc : Std.Associative (IntOp.andi : BitVec 1 → BitVec 1 → BitVec 1) := ⟨fun x y z => BitVec.and_assoc x y z⟩

theorem andi_true : ∀ c : BitVec 1, IntOp.andi c 1#1 = c := by decide

/-- A fold over an axis of extent one is the operation applied once, to the single element and the initial value. -/
theorem fold_unit {α : Type} (op : α → α → α) [Std.Commutative op] [Std.Associative op] (n : ℕ) (hn : n = 1)
    (init : α) (f : Fin n → α) :
    (Finset.univ : Finset (Fin n)).fold op init f = op (f ⟨0, by omega⟩) init := by
  subst hn
  rw [Finset.univ_unique, Finset.fold_singleton]
  rfl

theorem inb_at (t : ST.Idx → BitVec 32) (b : Fin 16) (r q : Fin 512) :
    val_main_call2_v12 (F := Ideal) t (ix4 b (0 : Fin 1) r q) = inbR (twAt t b r q) := by
  have h : S16x1x512x512x1.Reduces [4] S16x1x512x512 := by decide
  unfold val_main_call2_v12
  rw [Host.reduce_eq_fold_single IntOp.andi _ _ _ h, fold_unit IntOp.andi (S16x1x512x512x1.size 4) rfl]
  have hl : h.lift (ix4 b (0 : Fin 1) r q) ⟨0, by decide⟩ = ix5 b (0 : Fin 1) r q (0 : Fin 1) := by
    funext a
    match a with | ⟨0, _⟩ => rfl | ⟨1, _⟩ => rfl | ⟨2, _⟩ => rfl | ⟨3, _⟩ => rfl | ⟨4, _⟩ => rfl
  show IntOp.andi (val_main_call2_v11 (F := Ideal) t (h.lift (ix4 b (0 : Fin 1) r q) ⟨0, by decide⟩)) _ = _
  rw [hl, val_main_call2_c_3_apply, andi_true, val_main_call2_v11_apply, val_main_call2_v7_apply,
    val_main_call2_v10_apply, start_at, val_main_call2_v6_apply, val_main_call2_c_2_apply, val_main_call2_v9_apply,
    val_main_call2_v8_apply, val_main_call2_c_1_apply]
  rfl

/-! ## The log-softmax of a pixel -/

theorem max_at (x : SX.Idx → EReal) (b : Fin 16) (r q : Fin 512) :
    val_main_call0_v2 (F := Ideal) x (ix3 b r q) = maxR (pxAt x b r q) := by
  have h : S16x19x512x512.Reduces [1] S16x512x512 := by decide
  rw [val_main_call0_v2_apply, val_main_call0_v1_apply, val_main_call0_cst_0_apply]
  unfold val_main_call0_v0
  rw [Host.reduce_eq_fold_single FloatOps.maximumf _ _ _ h, val_main_call0_cst_apply]
  have hl : (x ∘ h.lift (ix3 b r q)) = pxAt x b r q := by
    funext c
    show x (h.lift (ix3 b r q) c) = x (ix4 b c r q)
    congr 1
    funext a
    match a with | ⟨0, _⟩ => rfl | ⟨1, _⟩ => rfl | ⟨2, _⟩ => rfl | ⟨3, _⟩ => rfl
  rw [hl]
  rfl

theorem shift_at (x : SX.Idx → EReal) (b : Fin 16) (c : Fin 19) (r q : Fin 512) :
    val_main_call0_v5 (F := Ideal) x (ix4 b c r q) = pxAt x b r q c - maxR (pxAt x b r q) := by
  rw [val_main_call0_v5_apply, val_main_call0_v4_apply, idx_c0v4_at, val_main_call0_v3_apply, idx_c0v3_at, max_at]
  rfl

theorem sumExp_at (x : SX.Idx → EReal) (b : Fin 16) (r q : Fin 512) :
    val_main_call0_v7 (F := Ideal) x (ix3 b r q) = sumExpR (pxAt x b r q) := by
  rw [val_main_call0_v7_apply, val_main_call0_cst_1_apply]
  unfold sumExpR
  refine congrArg (_ + ·) (Finset.sum_congr rfl fun k _ => ?_)
  rw [idx_c0v7_at, val_main_call0_v6_apply, shift_at]
  rfl

theorem logp_at (x : SX.Idx → EReal) (b : Fin 16) (c : Fin 19) (r q : Fin 512) :
    val_main_v2 (F := Ideal) x (ix4 b c r q) = logpR (pxAt x b r q) c := by
  rw [val_main_v2_apply, shift_at, val_main_call0_v10_apply, idx_c0v10_at, val_main_call0_v9_apply,
    val_main_call0_v8_apply, idx_c0v8_at, sumExp_at]
  rfl

/-! ## The gather along the channel axis -/

/-- The gather's dimension numbers. -/
abbrev gD : GatherDims S16x19x512x512 S16x1x512x512x1 S16x1x512x512 :=
  gather_S16x19x512x512_S16x1x512x512x1_S16x1x512x512_n_1_023_023_1_4_1111

/-- On a batching axis the operand index is the batching coordinate alone. -/
theorem batch_val (j : S16x1x512x512.Idx) (idx : IVec S16x1x512x512x1 32) (a : Fin 4) (hm : a ∈ gD.operandBatchingDims) :
    (gD.operandIdx j idx a).val = gD.batchCoord j a := by
  show gD.start j idx a + gD.batchCoord j a + gD.offCoord j a = _
  rw [GatherDims.start_batching _ _ _ _ hm,
    GatherDims.offCoord_eq_zero _ _ _ (fun h => ((GatherDims.mem_sKept _ _).mp h).2 hm)]
  simp only [Nat.zero_add, Nat.add_zero]

/-- One start index per pixel into the channel axis, the other three axes batching: the element read at pixel
    `(b, r, q)` is the operand's at channel `min (start read signed) 18` of that pixel. -/
theorem gather_read {α : Type} (v : S16x19x512x512.Idx → α) (idx : IVec S16x1x512x512x1 32) (b : Fin 16) (r q : Fin 512)
    (w : BitVec 32) (hw : idx (ix5 b (0 : Fin 1) r q (0 : Fin 1)) = w) :
    Host.gather gD v idx (ix4 b (0 : Fin 1) r q)
      = v (ix4 b (⟨min w.toInt.toNat 18, by omega⟩ : Fin 19) r q) := by
  have hb0 : (0 : Fin 4) ∈ gD.operandBatchingDims := by decide
  have hb2 : (2 : Fin 4) ∈ gD.operandBatchingDims := by decide
  have hb3 : (3 : Fin 4) ∈ gD.operandBatchingDims := by decide
  unfold Host.gather
  congr 1
  funext a
  refine Fin.ext ?_
  match a with
  | ⟨0, _⟩ =>
    refine (batch_val _ idx (0 : Fin 4) hb0).trans ?_
    unfold GatherDims.batchCoord
    rw [dif_pos hb0]
    unfold GatherDims.siCoord
    simp only [Fin.val_cast]
    rfl
  | ⟨1, _⟩ =>
    have hnb : (1 : Fin 4) ∉ gD.operandBatchingDims := by decide
    have hc : (1 : Fin 4) ∈ gD.collapsedSliceDims := by decide
    have hm : (1 : Fin 4) ∈ gD.startIndexMap := by decide
    show gD.start _ idx (1 : Fin 4) + gD.batchCoord _ (1 : Fin 4) + gD.offCoord _ (1 : Fin 4) = min w.toInt.toNat 18
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gD.siIdx (ix4 b (0 : Fin 1) r q) ⟨List.idxOf (1 : Fin 4) gD.startIndexMap, List.idxOf_lt_length_iff.2 hm⟩
        = ix5 b (0 : Fin 1) r q (0 : Fin 1) := by
      funext c
      refine Fin.ext ?_
      match c with | ⟨0, _⟩ => rfl | ⟨1, _⟩ => rfl | ⟨2, _⟩ => rfl | ⟨3, _⟩ => rfl | ⟨4, _⟩ => rfl
    rw [hsi, hw]
    rfl
  | ⟨2, _⟩ =>
    refine (batch_val _ idx (2 : Fin 4) hb2).trans ?_
    unfold GatherDims.batchCoord
    rw [dif_pos hb2]
    unfold GatherDims.siCoord
    simp only [Fin.val_cast]
    rfl
  | ⟨3, _⟩ =>
    refine (batch_val _ idx (3 : Fin 4) hb3).trans ?_
    unfold GatherDims.batchCoord
    rw [dif_pos hb3]
    unfold GatherDims.siCoord
    simp only [Fin.val_cast]
    rfl

theorem gather_at (x : SX.Idx → EReal) (t : ST.Idx → BitVec 32) (b : Fin 16) (r q : Fin 512) :
    val_main_call2_v13 (F := Ideal) x t (ix4 b (0 : Fin 1) r q)
      = logpR (pxAt x b r q) (clampR (twAt t b r q)) := by
  unfold val_main_call2_v13
  rw [gather_read _ _ b r q _ (start_at t b r q)]
  exact logp_at x b (clampR (twAt t b r q)) r q

/-! ## The cross entropy, the focal term and the boundary weight of a pixel -/

theorem take_at (x : SX.Idx → EReal) (t : ST.Idx → BitVec 32) (b : Fin 16) (r q : Fin 512) :
    val_main_v6 (F := Ideal) x t (ix3 b r q) = takeR (pxAt x b r q) (twAt t b r q) := by
  rw [val_main_v6_apply, idx_v6_at, val_main_v5_apply, inb_at, gather_at, val_main_call2_v14_apply,
    val_main_call2_cst_apply]
  rfl

theorem ce_at (x : SX.Idx → EReal) (t : ST.Idx → BitVec 32) (b : Fin 16) (r q : Fin 512) :
    val_main_v8 (F := Ideal) x t (ix3 b r q) = ceR (pxAt x b r q) (twAt t b r q) := by
  rw [val_main_v8_apply, v1_at, val_main_v7_apply, take_at, val_main_call3_v1_apply, val_main_call3_v0_apply,
    val_main_cst_apply]
  rfl

theorem focal_at (x : SX.Idx → EReal) (t : ST.Idx → BitVec 32) (b : Fin 16) (r q : Fin 512) :
    val_main_v17 (F := Ideal) x t (ix3 b r q) = focalR (pxAt x b r q) (twAt t b r q) := by
  rw [val_main_v17_apply, val_main_v16_apply, val_main_v15_apply, val_main_cst_3_apply, val_main_v14_apply,
    val_main_v12_apply, val_main_v11_apply, val_main_cst_1_apply, val_main_v10_apply, val_main_v9_apply, ce_at,
    val_main_v13_apply, val_main_cst_2_apply]
  rfl

theorem wgt_at (t : ST.Idx → BitVec 32) (b : Fin 16) (r q : Fin 512) :
    val_main_v33 (F := Ideal) t (ix3 b r q)
      = wgtR (twAt t b r q) (val_main_v27 (F := Ideal) t (ix3 b r q)) := by
  rw [val_main_v33_apply, val_main_v32_apply, val_main_v30_apply, val_main_v29_apply, val_main_v28_apply,
    val_main_cst_5_apply, v18_at, val_main_v31_apply, val_main_cst_6_apply, val_main_call5_v0_apply,
    val_main_cst_7_apply, val_main_call5_v1_apply, val_main_cst_8_apply]
  rfl

/-! ## The two summand arrays and the result -/

theorem v36_at (x : SX.Idx → EReal) (t : ST.Idx → BitVec 32) (b : Fin 16) (r q : Fin 512) : val_main_v36 (F := Ideal) x t (ix3 b r q) = numR (pxAt x b r q) (twAt t b r q) (val_main_v27 (F := Ideal) t (ix3 b r q)) := by
  rw [val_main_v36_apply, val_main_v34_apply, focal_at, v18_at, val_main_v35_apply, wgt_at]
  rfl

theorem v38_at (t : ST.Idx → BitVec 32) (b : Fin 16) (r q : Fin 512) : val_main_v38 (F := Ideal) t (ix3 b r q) = denR (twAt t b r q) (val_main_v27 (F := Ideal) t (ix3 b r q)) := by
  rw [val_main_v38_apply, v18_at, val_main_v37_apply, wgt_at]
  rfl

theorem v42_eq (x : SX.Idx → EReal) (t : ST.Idx → BitVec 32) : val_main_v42 (F := Ideal) x t = fun _ => lossR (val_main_v36 (F := Ideal) x t) (val_main_v38 (F := Ideal) t) := by
  funext i0
  rw [val_main_v42_apply, val_main_v41_apply, val_main_v40_apply, val_main_v39_apply, val_main_cst_11_apply,
    val_main_cst_9_apply, val_main_cst_10_apply]
  rfl

theorem ref_loss (x : SX.Idx → EReal) (t : ST.Idx → BitVec 32) (hx : ∀ i, x i ≠ ⊤ ∧ x i ≠ ⊥) (ht : ∀ j, t j = 255#32 ∨ (t j).toNat ≤ 18) : val_main_v42 (F := Ideal) x t = fun _ => lossK x t := by
  have h36 : val_main_v36 (F := Ideal) x t
      = fun i => numR (pxAt x (i 0) (i 1) (i 2)) (twAt t (i 0) (i 1) (i 2)) (val_main_v27 (F := Ideal) t i) := by
    funext i
    obtain ⟨b, r, q, rfl⟩ : ∃ (b : Fin 16) (r q : Fin 512), i = ix3 b r q := ⟨i 0, i 1, i 2, eq_ix3 i⟩
    exact v36_at x t b r q
  have h38 : val_main_v38 (F := Ideal) t
      = fun i => denR (twAt t (i 0) (i 1) (i 2)) (val_main_v27 (F := Ideal) t i) := by
    funext i
    obtain ⟨b, r, q, rfl⟩ : ∃ (b : Fin 16) (r q : Fin 512), i = ix3 b r q := ⟨i 0, i 1, i 2, eq_ix3 i⟩
    exact v38_at t b r q
  rw [v42_eq, h36, h38]
  funext _
  exact lossR_eq_lossK x t (val_main_v27 (F := Ideal) t) hx ht

end Cert.RefPixel

end
-- ==== Proof.PreDecode.lean ====
/-
  The printed precondition, read back. The predicate is the conjunction of two reductions by `and`
  to a scalar: over every logit x, |x| < +∞; over every label word w, w = 255 or 0 ≤ w ≤ 18 (signed).
  Its being all ones therefore says: every logit is a real number (neither +∞ nor -∞), and every
  label word is 255 or at most 18 as a natural number.
-/
import proofs.«430339_j37263136260803_3_alg».proof.Pre_finite_inputs
import proofs.«430339_j37263136260803_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.PreDecode

open Idealize.ShloMosaic

/-- The scalar shape has one index. -/
instance : Subsingleton Cert.Pre_finite_inputs.S_.Idx := ⟨fun a b => funext fun d => d.elim0⟩

/-- An extended real whose absolute value max a (-a) lies below +∞ is neither infinity. -/
theorem finite_of_abs_lt (a : EReal) (h : max a (-a) < ⊤) : a ≠ ⊤ ∧ a ≠ ⊥ := by
  constructor
  · rintro rfl; simp at h
  · rintro rfl; simp at h

/-- The pattern 0x7F800000 denotes +∞. -/
theorem inf_bits : Ideal.ofBits .f32 0x7F800000#32 = (⊤ : EReal) := by simp [Ideal.ofBits, Ideal.ieee]

/-- A word that is 255, or lies in [0, 18] signed, is 255 or at most 18 unsigned. -/
theorem label_of_word (w : BitVec 32)
    (h : IntOp.ori (IntOp.cmpi .eq w 255#32) (IntOp.andi (IntOp.cmpi .sge w 0#32) (IntOp.cmpi .sle w 18#32)) = 1#1) :
    w = 255#32 ∨ w.toNat ≤ 18 := by
  rcases IntOp.ori_eq_one.1 h with h | h
  · exact Or.inl (StableHlo.Predicate.cmpi_eq_iff.1 h)
  · obtain ⟨h0, h18⟩ := IntOp.andi_eq_one.1 h
    right
    unfold IntOp.cmpi at h0 h18
    rw [StableHlo.Predicate.ofBool_eq_one_iff] at h0 h18
    simp only [BitVec.sle, decide_eq_true_eq] at h0 h18
    have hw := w.isLt
    have hi := BitVec.toInt_eq_toNat_cond w
    have z0 : (0#32 : BitVec 32).toInt = 0 := by decide
    have z18 : (18#32 : BitVec 32).toInt = 18 := by decide
    rw [z0] at h0
    rw [z18] at h18
    split at hi <;> omega

theorem decode [Cert.Pre_finite_inputs.Facts] (x : FVec Ideal Cert.Pre_finite_inputs.S16x19x512x512 .f32) (t : IVec Cert.Pre_finite_inputs.S16x512x512 32) (h : Cert.Pre_finite_inputs.fn (F := Ideal) x t = fun _ => 1#1) : (∀ i, (x i : EReal) ≠ ⊤ ∧ (x i : EReal) ≠ ⊥) ∧ (∀ j, t j = 255#32 ∨ (t j).toNat ≤ 18) := by
  have e := congrFun h ValueIdx.ix0
  dsimp only [Cert.Pre_finite_inputs.fn] at e
  obtain ⟨e1, e2⟩ := IntOp.andi_eq_one.1 e
  refine ⟨fun i => ?_, fun j => ?_⟩
  · have p := Host.reduce_andi_all _ _ _ _ _ e1 i
    have q : Ideal.cmp .olt (max (x i) (-(x i))) (Ideal.ofBits .f32 0x7F800000#32) = 1#1 := p
    rw [inf_bits] at q
    simp only [Ideal.cmp, StableHlo.Predicate.ofBool_eq_one_iff, decide_eq_true_eq] at q
    exact finite_of_abs_lt _ q
  · have p := Host.reduce_andi_all _ _ _ _ _ e2 j
    exact label_of_word (t j) p

end Cert.PreDecode

end
-- ==== Proof.lean ====
/-
  The focal loss with boundary weighting: a fused kernel against its jnp reference, equal over the extended reals on
  finite logits and labels in {0, …, 18} ∪ {255}.

  The kernel keeps, per batch entry, a numerator and a denominator accumulated over the two half-images; at a pixel
  it adds `(1 - exp (-ce)) · ce · valid` and `valid`, where `ce = log ∑ exp (x - M) - (x_label - M)`.  The reference
  computes the log-softmax, gathers the label's entry, weights every pixel by the boundary-dilation weight and
  sums `focal · valid · weight` and `valid · weight` over all pixels.  The weight is 1 wherever `valid` is 1 (the
  dilated mask is multiplied by `1 - valid`) and multiplies a zero wherever `valid` is 0, so both sums are the
  kernel's; the rest is the per-pixel identity of the two arrangements of the cross entropy, which needs the logits
  real and the label a class or the ignore word, and a regrouping of a finite sum.
-/
import proofs.«430339_j37263136260803_3_alg».proof.Defs
import proofs.«430339_j37263136260803_3_alg».proof.Proof.Gen.Kernel
import proofs.«430339_j37263136260803_3_alg».proof.Proof.Gen.Kernel.Frame
import proofs.«430339_j37263136260803_3_alg».proof.Proof.Gen.KernelIdeal
import proofs.«430339_j37263136260803_3_alg».proof.Proof.Gen.KernelIdeal.Frame
import proofs.«430339_j37263136260803_3_alg».proof.Proof.Gen.ReferenceIdeal
import proofs.«430339_j37263136260803_3_alg».proof.Proof.Gen.Pre_finite_inputs
import proofs.«430339_j37263136260803_3_alg».proof.Proof.KernelValue
import proofs.«430339_j37263136260803_3_alg».proof.Proof.RefRunValue
import proofs.«430339_j37263136260803_3_alg».proof.Proof.RefPixel
import proofs.«430339_j37263136260803_3_alg».proof.Proof.PreDecode
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both programs end at the loss of the arguments: the kernel by its run, the reference by its run read pixel by
    pixel, the precondition giving real logits and labels in range. -/
theorem algebraic : Cert.algebraic_KernelIdeal_ReferenceIdeal := by
  intro m ρ m' ρ' hpre hagree
  refine ⟨fun c _ => Cert.Focal.lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  obtain ⟨hx, ht⟩ := Cert.PreDecode.decode _ _ (hpre c)
  exact Cert.RefPixel.ref_loss _ _ hx ht

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
